-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x100 : Shape := ⟨2, ![800000, 100]⟩
abbrev S800000x64 : Shape := ⟨2, ![800000, 64]⟩
abbrev S50000x64 : Shape := ⟨2, ![50000, 64]⟩
abbrev S100x64 : Shape := ⟨2, ![100, 64]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S800000x100 : S_.BroadcastsInDim S800000x100 (![] : Fin 0 → Fin S800000x100.rank)
  reducesTo_S800000x100_S_d0_1 : S800000x100.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_v47 : IVec S_ 1) (main_v49 : IVec S800000 1) (main_c_19 : IVec S_ 1) : IVec S_ 1 :=
  let main_v50 : IVec S_ 1 := (fun x v => Host.reduce IntOp.andi x v reducesTo_S800000_S_d0 h_S_) main_v49 main_c_19
  let main_v51 : IVec S_ 1 := andi main_v47 main_v50
  main_v51

def fn_part2 {F : FTy → Type} [FloatOps F] (main_arg7 : FVec F S64x64 .f32) (main_arg8 : FVec F S64 .f32) (main_arg9 : IVec S800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 4294917296#32
  let main_v44 : IVec S800000 32 := broadcastInDim S800000 ![] bcast_S_S800000 main_c_16
  let main_v45 : IVec S800000 1 := cmpi .sge main_arg9 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v43 main_v46
  let main_c_18 : IVec S_ 32 := constantI S_ 32 50000#32
  let main_v48 : IVec S800000 32 := broadcastInDim S800000 ![] bcast_S_S800000 main_c_18
  let main_v49 : IVec S800000 1 := cmpi .slt main_arg9 main_v48
  let main_c_19 : IVec S_ 1 := constantI S_ 1 1#1
  fn_part3 (F := F) main_v47 main_v49 main_c_19

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : IVec S800000 32) (main_v13 : IVec S_ 1) (main_v16 : IVec S100x64 1) : IVec S_ 1 :=
  let main_c_5 : IVec S_ 1 := constantI S_ 1 1#1
  let main_v17 : IVec S_ 1 := (fun x v => Host.reduce IntOp.andi x v reducesTo_S100x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S800000x100 .f32) (main_arg1 : FVec F S800000x64 .f32) (main_arg2 : FVec F S50000x64 .f32) (main_arg3 : FVec F S100x64 .f32) (main_arg4 : FVec F S64 .f32) (main_arg5 : FVec F S64x64 .f32) (main_arg6 : FVec F S64 .f32) (main_arg7 : FVec F S64x64 .f32) (main_arg8 : FVec F S64 .f32) (main_arg9 : IVec S800000 32) (main_arg10 : IVec S800000 32) : IVec S_ 1 :=
  let main_v0 : FVec F S800000x100 .f32 := Host.absf main_arg0
  let main_cst : FVec F S_ .f32 := constant S_ .f32 0x7F800000#32
  let main_v1 : FVec F S800000x100 .f32 := broadcastInDim S800000x100 ![] bcast_S_S800000x100 main_cst
  let main_v2 : IVec S800000x100 1 := cmpf .olt main_v0 main_v1
  let main_c : IVec S_ 1 := constantI S_ 1 1#1
  let main_v3 : IVec S_ 1 := (fun x v => Host.reduce IntOp.andi x v reducesTo_S800000x100_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S100x64 .f32 := Host.absf main_arg3
  let main_cst_4 : FVec F S_ .f32 := constant S_ .f32 0x7F800000#32
  let main_v15 : FVec F S100x64 .f32 := broadcastInDim S100x64 ![] bcast_S_S100x64 main_cst_4
  let main_v16 : IVec S100x64 1 := cmpf .olt main_v14 main_v15
  fn_part1 (F := F) main_arg4 main_arg5 main_arg6 main_arg7 main_arg8 main_arg9 main_v13 main_v16
-- ==== Kernel.lean ====
abbrev S800000x100 : Shape := ⟨2, ![800000, 100]⟩
abbrev S800000x64 : Shape := ⟨2, ![800000, 64]⟩
abbrev S50000x64 : Shape := ⟨2, ![50000, 64]⟩
abbrev S100x64 : Shape := ⟨2, ![100, 64]⟩
abbrev S64 : Shape := ⟨1, ![64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S400000x200 : Shape := ⟨2, ![400000, 200]⟩
abbrev S400000x128 : Shape := ⟨2, ![400000, 128]⟩
abbrev S100x128 : Shape := ⟨2, ![100, 128]⟩
abbrev S200x128 : Shape := ⟨2, ![200, 128]⟩
abbrev S64x128 : Shape := ⟨2, ![64, 128]⟩
abbrev S128x128 : Shape := ⟨2, ![128, 128]⟩
abbrev S128 : Shape := ⟨1, ![128]⟩
abbrev S4000x200 : Shape := ⟨2, ![4000, 200]⟩
abbrev S4000x128 : Shape := ⟨2, ![4000, 128]⟩
abbrev S1x128 : Shape := ⟨2, ![1, 128]⟩

abbrev nBuf : Space → Nat
  | .hbm => 61
  | .vmem => 14
  | .smem => 0
  | _ => 0

abbrev bufTy : (tb : Table) → Fin (tcTables nBuf tb) → BufTy
  | .hbm, ⟨0, _⟩ => ⟨S800000x100, .f32⟩
  | .hbm, ⟨1, _⟩ => ⟨S800000x64, .f32⟩
  | .hbm, ⟨2, _⟩ => ⟨S50000x64, .f32⟩
  | .hbm, ⟨3, _⟩ => ⟨S100x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S400000x200, .f32⟩
  | .hbm, ⟨35, _⟩ => ⟨S400000x128, .f32⟩
  | .hbm, ⟨36, _⟩ => ⟨S400000x128, .f32⟩
  | .hbm, ⟨37, _⟩ => ⟨S_, .f32⟩
  | .hbm, ⟨38, _⟩ => ⟨S100x64, .f32⟩
  | .hbm, ⟨39, _⟩ => ⟨S100x128, .f32⟩
  | .hbm, ⟨40, _⟩ => ⟨S100x128, .f32⟩
  | .hbm, ⟨41, _⟩ => ⟨S200x128, .f32⟩
  | .hbm, ⟨42, _⟩ => ⟨S_, .f32⟩
  | .hbm, ⟨43, _⟩ => ⟨S64x64, .f32⟩
  | .hbm, ⟨44, _⟩ => ⟨S64x128, .f32⟩
  | .hbm, ⟨45, _⟩ => ⟨S64x128, .f32⟩
  | .hbm, ⟨46, _⟩ => ⟨S128x128, .f32⟩
  | .hbm, ⟨47, _⟩ => ⟨S_, .f32⟩
  | .hbm, ⟨48, _⟩ => ⟨S64x64, .f32⟩
  | .hbm, ⟨49, _⟩ => ⟨S64x128, .f32⟩
  | .hbm, ⟨50, _⟩ => ⟨S64x128, .f32⟩
  | .hbm, ⟨51, _⟩ => ⟨S128x128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S400000x128, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .local _ .vmem, ⟨0, _⟩ => ⟨S4000x200, .f32⟩
  | .local _ .vmem, ⟨1, _⟩ => ⟨S4000x200, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S200x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S800000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S800000x100_S400000x200 : S800000x100.ShapeCasts S400000x200
  shapeCasts_S800000x64_S400000x128 : S800000x64.ShapeCasts S400000x128
  bcast_S_S100x64 : S_.BroadcastsInDim S100x64 (![] : Fin 0 → Fin S100x64.rank)
  concatenates_S100x64_S100x64_S100x128_d1 : Shape.Concatenates [S100x64, S100x64] S100x128 1
  concatenates_S100x128_S100x128_S200x128_d0 : Shape.Concatenates [S100x128, S100x128] S200x128 0
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  inb_S4000x200_S4000x200_0_0 : ∀ a, (![0, 0] : Fin 2 → Nat) a + S4000x200.size a ≤ S4000x200.size a
  h_S4000x200 : 0 < S4000x200.numel
  shapeCasts_S4000x200_S4000x200 : S4000x200.ShapeCasts S4000x200
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S400000x128_S800000x64 : S400000x128.ShapeCasts S800000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S4000x200_S200x128_S4000x128_1_0_0_1_n_n_wf : DotDims.WF S4000x200 S200x128 S4000x128 [1] [0] [0] [1] [] []
  dot_S4000x128_S128x128_S4000x128_1_0_0_1_n_n_wf : DotDims.WF S4000x128 S128x128 S4000x128 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x200.size a ≤ S400000x200.size a
  hwx0_0 : ∀ i : grid0.Coords, EltTy.bits .f32 = 32 ∨ (Rect.block (s := S400000x200) S4000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x128.size a
  hwx0_3 : ∀ i : grid0.Coords, EltTy.bits .f32 = 32 ∨ (Rect.block (s := S200x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S400000x128.size a
  hwx0_9 : ∀ i : grid0.Coords, EltTy.bits .f32 = 32 ∨ (Rect.block (s := S400000x128) S4000x128.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x200_S200x128_S4000x128_1_0_0_1_n_n : DotDims S4000x200 S200x128 S4000x128 where
  lhsContracting := [1]
  rhsContracting := [0]
  lhsNonContracting := [0]
  rhsNonContracting := [1]
  lhsBatch := []
  rhsBatch := []
  wf := dot_S4000x200_S200x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v1) S4000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S800000x100 : Shape := ⟨2, ![800000, 100]⟩
abbrev S800000x64 : Shape := ⟨2, ![800000, 64]⟩
abbrev S50000x64 : Shape := ⟨2, ![50000, 64]⟩
abbrev S100x64 : Shape := ⟨2, ![100, 64]⟩
abbrev S64 : Shape := ⟨1, ![64]⟩
abbrev S64x64 : Shape := ⟨2, ![64, 64]⟩
abbrev S800000 : Shape := ⟨1, ![800000]⟩
abbrev S1x64 : Shape := ⟨2, ![1, 64]⟩
abbrev S_ : Shape := ⟨0, ![]⟩
abbrev S800000x1 : Shape := ⟨2, ![800000, 1]⟩

abbrev nBuf : Space → Nat
  | .hbm => 53
  | .vmem => 0
  | .smem => 0
  | _ => 0

abbrev bufTy : (tb : Table) → Fin (tcTables nBuf tb) → BufTy
  | .hbm, ⟨0, _⟩ => ⟨S800000x100, .f32⟩
  | .hbm, ⟨1, _⟩ => ⟨S800000x64, .f32⟩
  | .hbm, ⟨2, _⟩ => ⟨S50000x64, .f32⟩
  | .hbm, ⟨3, _⟩ => ⟨S100x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S800000, .i32⟩
  | .hbm, ⟨10, _⟩ => ⟨S800000, .i32⟩
  | .hbm, ⟨11, _⟩ => ⟨S800000x64, .f32⟩
  | .hbm, ⟨12, _⟩ => ⟨S1x64, .f32⟩
  | .hbm, ⟨13, _⟩ => ⟨S800000x64, .f32⟩
  | .hbm, ⟨14, _⟩ => ⟨S800000x64, .f32⟩
  | .hbm, ⟨15, _⟩ => ⟨S_, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S800000x64, .f32⟩
  | .hbm, ⟨20, _⟩ => ⟨S800000x64, .i1⟩
  | .hbm, ⟨21, _⟩ => ⟨S_, .f32⟩
  | .hbm, ⟨22, _⟩ => ⟨S800000x64, .f32⟩
  | .hbm, ⟨23, _⟩ => ⟨S800000x64, .f32⟩
  | .hbm, ⟨24, _⟩ => ⟨S800000x64, .f32⟩
  | .hbm, ⟨25, _⟩ => ⟨S800000x64, .f32⟩
  | .hbm, ⟨26, _⟩ => ⟨S_, .f32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | _, _ => ⟨S800000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  dot_S800000x100_S100x64_S800000x64_1_0_0_1_n_n_wf : DotDims.WF S800000x100 S100x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S800000x100_S100x64_S800000x64_1_0_0_1_n_n : DotDims S800000x100 S100x64 S800000x64 where
  lhsContracting := [1]
  rhsContracting := [0]
  lhsNonContracting := [0]
  rhsNonContracting := [1]
  lhsBatch := []
  rhsBatch := []
  wf := dot_S800000x100_S100x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
import Idealize.ShloMosaic.PureOps.Ideal
import Idealize.ShloMosaic.PureOps.Ideal.Laws
import Mathlib.Algebra.BigOperators.Fin

noncomputable section

namespace Cert.EdgeMsg

open Idealize.ShloMosaic

/-- Softplus with beta = 1/2 and threshold 14 on the extended reals: `x` where `x/2 > 14`,
    else `2 · log (1 + exp (min (x/2) 14))`. -/
def softplus (x : EReal) : EReal :=
  Scalar.select (Ideal.cmp .ogt (Ideal.ofBits .f32 0x3F000000#32 * x) (Ideal.ofBits .f32 0x41600000#32)) x
    (Ideal.ofBits .f32 0x40000000#32 *
      Ideal.log1p (Ideal.exp (min (Ideal.ofBits .f32 0x3F000000#32 * x) (Ideal.ofBits .f32 0x41600000#32))))

/-- One row through a linear layer: `∑ k, x k · W k j + b j`. -/
def lin {K N : ℕ} (x : Fin K → EReal) (W : Fin K → Fin N → EReal) (b : Fin N → EReal) (j : Fin N) : EReal :=
  ∑ k, x k * W k j + b j

/-- One edge's message: the gathered source row times the two-layer map of the edge's radial basis row,
    plus the linear map of the edge's feature row. -/
def msg (g : Fin 64 → EReal) (rbf : Fin 100 → EReal) (ef : Fin 64 → EReal)
    (W1 : Fin 100 → Fin 64 → EReal) (b1 : Fin 64 → EReal) (W2 : Fin 64 → Fin 64 → EReal) (b2 : Fin 64 → EReal)
    (W3 : Fin 64 → Fin 64 → EReal) (b3 : Fin 64 → EReal) (j : Fin 64) : EReal :=
  g j * lin (fun k => softplus (lin rbf W1 b1 k)) W2 b2 j + lin ef W3 b3 j

/-- Which of the two paired edges a lane of 128 belongs to, and its feature there. -/
def hi128 (k : Fin 128) : Fin 2 := ⟨k.val / 64, by omega⟩
def lo128 (k : Fin 128) : Fin 64 := ⟨k.val % 64, by omega⟩
/-- The same for a column of the 200 paired radial basis columns. -/
def hi200 (q : Fin 200) : Fin 2 := ⟨q.val / 100, by omega⟩
def lo200 (q : Fin 200) : Fin 100 := ⟨q.val % 100, by omega⟩

/-- Edge `2p + h`: member `h` of the pair of consecutive edges that paired row `p` holds. -/
def edgeOf (p : Fin 400000) (h : Fin 2) : Fin 800000 := ⟨2 * p.val + h.val, by omega⟩

/-- One paired row of two edges through the same layers with doubled (block-diagonal) weights, lane by lane. -/
def payRow (x2 : Fin 128 → EReal) (x0 : Fin 200 → EReal) (x1 : Fin 128 → EReal)
    (W1d : Fin 200 → Fin 128 → EReal) (b1d : Fin 128 → EReal) (W2d : Fin 128 → Fin 128 → EReal) (b2d : Fin 128 → EReal)
    (W3d : Fin 128 → Fin 128 → EReal) (b3d : Fin 128 → EReal) (c : Fin 128) : EReal :=
  x2 c * lin (fun k => softplus (lin x0 W1d b1d k)) W2d b2d c + lin x1 W3d b3d c

/-- A sum over 200 indices is the sum over the first 100 plus the sum over the last 100. -/
private theorem sum200 (f : Fin 200 → EReal) :
    ∑ q : Fin 200, f q
      = ∑ i : Fin 100, f (Fin.castAdd 100 i) + ∑ i : Fin 100, f (Fin.natAdd 100 i) :=
  Fin.sum_univ_add (a := 100) (b := 100) f

/-- A sum over 128 indices is the sum over the first 64 plus the sum over the last 64. -/
private theorem sum128 (f : Fin 128 → EReal) :
    ∑ q : Fin 128, f q
      = ∑ i : Fin 64, f (Fin.castAdd 64 i) + ∑ i : Fin 64, f (Fin.natAdd 64 i) :=
  Fin.sum_univ_add (a := 64) (b := 64) f

/-! Half and offset of the indices of the first and of the second block. -/

private theorem hi200_castAdd (i : Fin 100) : hi200 (Fin.castAdd 100 i) = 0 := by
  apply Fin.ext
  show (Fin.castAdd 100 i).val / 100 = 0
  rw [Fin.coe_castAdd]; have := i.isLt; omega

private theorem lo200_castAdd (i : Fin 100) : lo200 (Fin.castAdd 100 i) = i := by
  apply Fin.ext
  show (Fin.castAdd 100 i).val % 100 = i.val
  rw [Fin.coe_castAdd]; have := i.isLt; omega

private theorem hi200_natAdd (i : Fin 100) : hi200 (Fin.natAdd 100 i) = 1 := by
  apply Fin.ext
  show (Fin.natAdd 100 i).val / 100 = 1
  rw [Fin.coe_natAdd]; have := i.isLt; omega

private theorem lo200_natAdd (i : Fin 100) : lo200 (Fin.natAdd 100 i) = i := by
  apply Fin.ext
  show (Fin.natAdd 100 i).val % 100 = i.val
  rw [Fin.coe_natAdd]; have := i.isLt; omega

private theorem hi128_castAdd (i : Fin 64) : hi128 (Fin.castAdd 64 i) = 0 := by
  apply Fin.ext
  show (Fin.castAdd 64 i).val / 64 = 0
  rw [Fin.coe_castAdd]; have := i.isLt; omega

private theorem lo128_castAdd (i : Fin 64) : lo128 (Fin.castAdd 64 i) = i := by
  apply Fin.ext
  show (Fin.castAdd 64 i).val % 64 = i.val
  rw [Fin.coe_castAdd]; have := i.isLt; omega

private theorem hi128_natAdd (i : Fin 64) : hi128 (Fin.natAdd 64 i) = 1 := by
  apply Fin.ext
  show (Fin.natAdd 64 i).val / 64 = 1
  rw [Fin.coe_natAdd]; have := i.isLt; omega

private theorem lo128_natAdd (i : Fin 64) : lo128 (Fin.natAdd 64 i) = i := by
  apply Fin.ext
  show (Fin.natAdd 64 i).val % 64 = i.val
  rw [Fin.coe_natAdd]; have := i.isLt; omega

private theorem fin2_zero_ne_one : (0 : Fin 2) ≠ 1 := by decide
private theorem fin2_one_ne_zero : (1 : Fin 2) ≠ 0 := by decide

/-- Contraction against a block-diagonal matrix, 200 rows: only the block of half `h` survives,
    every other term being `x * 0 = 0`. -/
private theorem contract200 {N : ℕ} (a : Fin 2 → Fin 100 → EReal) (W : Fin 100 → Fin N → EReal)
    (h : Fin 2) (j : Fin N) :
    ∑ q : Fin 200, a (hi200 q) (lo200 q) * (if hi200 q = h then W (lo200 q) j else 0)
      = ∑ q' : Fin 100, a h q' * W q' j := by
  rw [sum200]
  simp only [hi200_castAdd, lo200_castAdd, hi200_natAdd, lo200_natAdd]
  rcases Fin.exists_fin_two.mp ⟨h, rfl⟩ with h0 | h1
  · subst h0
    simp only [if_true, if_neg fin2_one_ne_zero, mul_zero, Finset.sum_const_zero, add_zero]
  · subst h1
    simp only [if_true, if_neg fin2_zero_ne_one, mul_zero, Finset.sum_const_zero, zero_add]

/-- Contraction against a block-diagonal matrix, 128 rows. -/
private theorem contract128 {N : ℕ} (a : Fin 2 → Fin 64 → EReal) (W : Fin 64 → Fin N → EReal)
    (h : Fin 2) (j : Fin N) :
    ∑ q : Fin 128, a (hi128 q) (lo128 q) * (if hi128 q = h then W (lo128 q) j else 0)
      = ∑ q' : Fin 64, a h q' * W q' j := by
  rw [sum128]
  simp only [hi128_castAdd, lo128_castAdd, hi128_natAdd, lo128_natAdd]
  rcases Fin.exists_fin_two.mp ⟨h, rfl⟩ with h0 | h1
  · subst h0
    simp only [if_true, if_neg fin2_one_ne_zero, mul_zero, Finset.sum_const_zero, add_zero]
  · subst h1
    simp only [if_true, if_neg fin2_zero_ne_one, mul_zero, Finset.sum_const_zero, zero_add]

/-- With block-diagonal doubled weights (zero off the diagonal blocks) and doubled biases, lane `c` of a paired row is
    feature `c mod 64` of the message of edge `c / 64` of the pair: the zero blocks contribute `x · 0 = 0` to each sum. -/
theorem payRow_eq (g ef : Fin 2 → Fin 64 → EReal) (rbf : Fin 2 → Fin 100 → EReal)
    (W1 : Fin 100 → Fin 64 → EReal) (b1 : Fin 64 → EReal) (W2 : Fin 64 → Fin 64 → EReal) (b2 : Fin 64 → EReal)
    (W3 : Fin 64 → Fin 64 → EReal) (b3 : Fin 64 → EReal)
    (x2 : Fin 128 → EReal) (x0 : Fin 200 → EReal) (x1 : Fin 128 → EReal)
    (W1d : Fin 200 → Fin 128 → EReal) (b1d : Fin 128 → EReal) (W2d : Fin 128 → Fin 128 → EReal) (b2d : Fin 128 → EReal)
    (W3d : Fin 128 → Fin 128 → EReal) (b3d : Fin 128 → EReal)
    (h0 : ∀ q, x0 q = rbf (hi200 q) (lo200 q)) (h1 : ∀ k, x1 k = ef (hi128 k) (lo128 k))
    (h2 : ∀ k, x2 k = g (hi128 k) (lo128 k))
    (hW1 : ∀ q k, W1d q k = if hi200 q = hi128 k then W1 (lo200 q) (lo128 k) else 0)
    (hb1 : ∀ k, b1d k = b1 (lo128 k))
    (hW2 : ∀ q k, W2d q k = if hi128 q = hi128 k then W2 (lo128 q) (lo128 k) else 0)
    (hb2 : ∀ k, b2d k = b2 (lo128 k))
    (hW3 : ∀ q k, W3d q k = if hi128 q = hi128 k then W3 (lo128 q) (lo128 k) else 0)
    (hb3 : ∀ k, b3d k = b3 (lo128 k)) (c : Fin 128) :
    payRow x2 x0 x1 W1d b1d W2d b2d W3d b3d c
      = msg (g (hi128 c)) (rbf (hi128 c)) (ef (hi128 c)) W1 b1 W2 b2 W3 b3 (lo128 c) := by
  -- first layer, lane by lane: the paired row's first layer is the edge's own first layer
  have hL1 : ∀ k : Fin 128, lin x0 W1d b1d k = lin (rbf (hi128 k)) W1 b1 (lo128 k) := by
    intro k
    unfold lin
    simp only [h0, hW1, hb1]
    rw [contract200 rbf W1 (hi128 k) (lo128 k)]
  -- second layer
  have hL2 : lin (fun k => softplus (lin x0 W1d b1d k)) W2d b2d c
      = lin (fun k => softplus (lin (rbf (hi128 c)) W1 b1 k)) W2 b2 (lo128 c) := by
    simp only [hL1]
    unfold lin
    simp only [hW2, hb2]
    rw [contract128 (fun h k' => softplus (∑ q, rbf h q * W1 q k' + b1 k')) W2 (hi128 c) (lo128 c)]
  -- the edge-feature layer
  have hL3 : lin x1 W3d b3d c = lin (ef (hi128 c)) W3 b3 (lo128 c) := by
    unfold lin
    simp only [h1, hW3, hb3]
    rw [contract128 ef W3 (hi128 c) (lo128 c)]
  unfold payRow msg
  rw [hL2, hL3, h2]

end Cert.EdgeMsg

end
-- ==== Proof.Payload.lean ====
import proofs.«401003_j45105746542698_2_alg».proof.Proof.Gen.KernelIdeal.Skeleton
import proofs.«401003_j45105746542698_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.EdgeMsg

/-! ### The 200-term contraction: operand indices axis by axis -/

private theorem lhs_d200_0 (i : S4000x128.Idx) (q : dot_S4000x200_S200x128_S4000x128_1_0_0_1_n_n.contr.Idx) :
    (dot_S4000x200_S200x128_S4000x128_1_0_0_1_n_n.lhsIdx i q 0).val = (i 0).val := by
  unfold DotDims.lhsIdx
  rw [dif_neg (show ¬(0 : Fin S4000x200.rank) ∈ dot_S4000x200_S200x128_S4000x128_1_0_0_1_n_n.lhsBatch by decide), dif_pos (show (0 : Fin S4000x200.rank) ∈ dot_S4000x200_S200x128_S4000x128_1_0_0_1_n_n.lhsNonContracting by decide)]
  rfl
private theorem lhs_d200_1 (i : S4000x128.Idx) (q : dot_S4000x200_S200x128_S4000x128_1_0_0_1_n_n.contr.Idx) :
    (dot_S4000x200_S200x128_S4000x128_1_0_0_1_n_n.lhsIdx i q 1).val = (q ⟨0, by decide⟩).val :=
  dot_S4000x200_S200x128_S4000x128_1_0_0_1_n_n.lhsIdx_val_of_single rfl i q
private theorem rhs_d200_0 (i : S4000x128.Idx) (q : dot_S4000x200_S200x128_S4000x128_1_0_0_1_n_n.contr.Idx) :
    (dot_S4000x200_S200x128_S4000x128_1_0_0_1_n_n.rhsIdx i q 0).val = (q ⟨0, by decide⟩).val :=
  dot_S4000x200_S200x128_S4000x128_1_0_0_1_n_n.rhsIdx_val_of_single rfl i q
private theorem rhs_d200_1 (i : S4000x128.Idx) (q : dot_S4000x200_S200x128_S4000x128_1_0_0_1_n_n.contr.Idx) :
    (dot_S4000x200_S200x128_S4000x128_1_0_0_1_n_n.rhsIdx i q 1).val = (i 1).val := by
  unfold DotDims.rhsIdx
  rw [dif_neg (show ¬(1 : Fin S200x128.rank) ∈ dot_S4000x200_S200x128_S4000x128_1_0_0_1_n_n.rhsBatch by decide), dif_pos (show (1 : Fin S200x128.rank) ∈ dot_S4000x200_S200x128_S4000x128_1_0_0_1_n_n.rhsNonContracting by decide)]
  rfl

/-- A product into the zero accumulator, read at row `r`, lane `c`: the sum over the 200 contracted positions of
    the left operand's row `r` times the right operand's column `c`. -/
private theorem mm200_apply (A : FVec Ideal S4000x200 .bf16) (B : FVec Ideal S200x128 .bf16) (r : Fin 4000) (c : Fin 128) :
    matmul dot_S4000x200_S200x128_S4000x128_1_0_0_1_n_n none A B (constant (F := Ideal) S4000x128 .f32 0x00000000#32) (ix2 r c)
      = ∑ k : Fin 200, A (ix2 r k) * B (ix2 k c) := by
  refine (Ideal.matmul_constant_zero_apply dot_S4000x200_S200x128_S4000x128_1_0_0_1_n_n none A B (ix2 r c)).trans ?_
  rw [← Equiv.sum_comp (ValueIdx.contrEquiv1 dot_S4000x200_S200x128_S4000x128_1_0_0_1_n_n 200 rfl rfl).symm]
  refine Finset.sum_congr rfl fun k _ => ?_
  have hk := ValueIdx.contrEquiv1_symm_val dot_S4000x200_S200x128_S4000x128_1_0_0_1_n_n 200 rfl rfl k
  have el : dot_S4000x200_S200x128_S4000x128_1_0_0_1_n_n.lhsIdx (ix2 r c) ((ValueIdx.contrEquiv1 dot_S4000x200_S200x128_S4000x128_1_0_0_1_n_n 200 rfl rfl).symm k) = ix2 r k := funext fun a => Fin.ext (by
    match a with
    | ⟨0, _⟩ => exact lhs_d200_0 _ _
    | ⟨1, _⟩ => exact (lhs_d200_1 _ _).trans hk)
  have er : dot_S4000x200_S200x128_S4000x128_1_0_0_1_n_n.rhsIdx (ix2 r c) ((ValueIdx.contrEquiv1 dot_S4000x200_S200x128_S4000x128_1_0_0_1_n_n 200 rfl rfl).symm k) = ix2 k c := funext fun a => Fin.ext (by
    match a with
    | ⟨0, _⟩ => exact (rhs_d200_0 _ _).trans hk
    | ⟨1, _⟩ => exact rhs_d200_1 _ _)
  rw [el, er]

/-! ### The 128-term contraction: operand indices axis by axis -/

private theorem lhs_d128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs_d128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs_d128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs_d128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product into the zero accumulator, read at row `r`, lane `c`: the sum over the 128 contracted positions of
    the left operand's row `r` times the right operand's column `c`. -/
private theorem mm128_apply (A : FVec Ideal S4000x128 .bf16) (B : FVec Ideal S128x128 .bf16) (r : Fin 4000) (c : Fin 128) :
    matmul dot_S4000x128_S128x128_S4000x128_1_0_0_1_n_n none A B (constant (F := Ideal) S4000x128 .f32 0x00000000#32) (ix2 r c)
      = ∑ k : Fin 128, A (ix2 r k) * B (ix2 k c) := by
  refine (Ideal.matmul_constant_zero_apply dot_S4000x128_S128x128_S4000x128_1_0_0_1_n_n none A B (ix2 r c)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r c) ((ValueIdx.contrEquiv1 dot_S4000x128_S128x128_S4000x128_1_0_0_1_n_n 128 rfl rfl).symm k) = ix2 r k := funext fun a => Fin.ext (by
    match a with
    | ⟨0, _⟩ => exact lhs_d128_0 _ _
    | ⟨1, _⟩ => exact (lhs_d128_1 _ _).trans hk)
  have er : dot_S4000x128_S128x128_S4000x128_1_0_0_1_n_n.rhsIdx (ix2 r c) ((ValueIdx.contrEquiv1 dot_S4000x128_S128x128_S4000x128_1_0_0_1_n_n 128 rfl rfl).symm k) = ix2 k c := funext fun a => Fin.ext (by
    match a with
    | ⟨0, _⟩ => exact (rhs_d128_0 _ _).trans hk
    | ⟨1, _⟩ => exact rhs_d128_1 _ _)
  rw [el, er]

/-! ### A bias row repeated over the rows -/

/-- A length-128 vector given a leading unit axis and repeated over the 4000 rows reads, at row `r`, lane `c`, its entry `c`. -/
private theorem bias_apply (v : FVec Ideal S128 .f32) (r : Fin 4000) (c : Fin 128) :
    (broadcastTo S4000x128 (shapeCast S1x128 (shapeCast S128 v shapeCasts_S128_S128) shapeCasts_S128_S1x128) broadcasts_S1x128_S4000x128) (ix2 r c) = v (ix1 c) := by
  rw [shapeCast_self v shapeCasts_S128_S128]
  exact (broadcastTo_1b_ab_apply _ broadcasts_S1x128_S4000x128 r c).trans
    (shapeCast_a_1a_apply v shapeCasts_S128_S1x128 0 c)

/-! ### The three linear layers at an index -/

/-- The first layer before its activation, at row `r`, lane `k`: the row of 200 inputs through the first weights, plus the bias. -/
private theorem pre_apply (v0 : FVec Ideal S4000x200 .f32) (v3 : FVec Ideal S200x128 .f32) (v7 : FVec Ideal S128 .f32)
    (r : Fin 4000) (k : Fin 128) :
    (addf (matmul dot_S4000x200_S200x128_S4000x128_1_0_0_1_n_n none (truncf .bf16 (shapeCast S4000x200 v0 shapeCasts_S4000x200_S4000x200) bitsLt_bf16_f32) (truncf .bf16 (shapeCast S200x128 v3 shapeCasts_S200x128_S200x128) bitsLt_bf16_f32) (constant (F := Ideal) S4000x128 .f32 0x00000000#32)) (broadcastTo S4000x128 (shapeCast S1x128 (shapeCast S128 v7 shapeCasts_S128_S128) shapeCasts_S128_S1x128) broadcasts_S1x128_S4000x128)) (ix2 r k)
      = lin (fun q => v0 (ix2 r q)) (fun q k => v3 (ix2 q k)) (fun k => v7 (ix1 k)) k := by
  refine (congrArg₂ (· + ·) (mm200_apply _ _ r k) (bias_apply v7 r k)).trans ?_
  rw [shapeCast_self v0 shapeCasts_S4000x200_S4000x200, shapeCast_self v3 shapeCasts_S200x128_S200x128]
  rfl

/-- The third layer's product at row `r`, lane `c`: the row of 128 features through the third weights (its bias is added later). -/
private theorem pay3_apply (v33 : FVec Ideal S4000x128 .f32) (v36 : FVec Ideal S128x128 .f32) (r : Fin 4000) (c : Fin 128) :
    k0_pay3 (F := Ideal) v33 v36 (ix2 r c) = ∑ k : Fin 128, v33 (ix2 r k) * v36 (ix2 k c) := by
  unfold k0_pay3
  refine (mm128_apply _ _ r c).trans ?_
  rw [shapeCast_self v33 shapeCasts_S4000x128_S4000x128, shapeCast_self v36 shapeCasts_S128x128_S128x128]
  rfl

/-- The second layer at row `r`, lane `c`: the activated first layer's row through the second weights, plus the bias.
    The activation read at a lane is `softplus` of the first layer there: the same select, comparison, minimum,
    exponential and logarithm, on the same three constants. -/
private theorem pay2_apply (v0 : FVec Ideal S4000x200 .f32) (v3 : FVec Ideal S200x128 .f32) (v7 : FVec Ideal S128 .f32)
    (v24 : FVec Ideal S128x128 .f32) (v28 : FVec Ideal S128 .f32) (r : Fin 4000) (c : Fin 128) :
    k0_pay2 (F := Ideal) v0 v3 v7 v24 v28 (ix2 r c)
      = lin (fun k => softplus (lin (fun q => v0 (ix2 r q)) (fun q k => v3 (ix2 q k)) (fun k => v7 (ix1 k)) k))
          (fun q k => v24 (ix2 q k)) (fun k => v28 (ix1 k)) c := by
  unfold k0_pay2
  refine (congrArg₂ (· + ·) (mm128_apply _ _ r c) (bias_apply v28 r c)).trans ?_
  refine congrArg (· + v28 (ix1 c)) (Finset.sum_congr rfl fun k _ => ?_)
  refine congrArg₂ (· * ·) ?_ ?_
  · exact Eq.trans (b := softplus ((addf (matmul dot_S4000x200_S200x128_S4000x128_1_0_0_1_n_n none (truncf .bf16 (shapeCast S4000x200 v0 shapeCasts_S4000x200_S4000x200) bitsLt_bf16_f32) (truncf .bf16 (shapeCast S200x128 v3 shapeCasts_S200x128_S200x128) bitsLt_bf16_f32) (constant (F := Ideal) S4000x128 .f32 0x00000000#32)) (broadcastTo S4000x128 (shapeCast S1x128 (shapeCast S128 v7 shapeCasts_S128_S128) shapeCasts_S128_S1x128) broadcasts_S1x128_S4000x128)) (ix2 r k))) rfl (congrArg softplus (pre_apply v0 v3 v7 r k))
  · exact congrArg (fun f => f (ix2 k c)) (shapeCast_self v24 shapeCasts_S128x128_S128x128)

/-- The body's stored value at row `r`, lane `c` of a block: the paired-row formula of the nine loaded blocks' rows. -/
theorem pay_apply (v0 : Vec Ideal S4000x200 .f32) (v3 : Vec Ideal S200x128 .f32) (v7 : Vec Ideal S128 .f32)
    (v24 : Vec Ideal S128x128 .f32) (v28 : Vec Ideal S128 .f32) (v33 : Vec Ideal S4000x128 .f32)
    (v36 : Vec Ideal S128x128 .f32) (v40 : Vec Ideal S128 .f32) (v45 : Vec Ideal S4000x128 .f32)
    (r : Fin 4000) (c : Fin 128) :
    k0_pay1 (F := Ideal) (k0_pay2 (F := Ideal) v0 v3 v7 v24 v28) (k0_pay3 (F := Ideal) v33 v36) v40 v45 (ix2 r c)
      = payRow (fun k => v45 (ix2 r k)) (fun q => v0 (ix2 r q)) (fun k => v33 (ix2 r k))
          (fun q k => v3 (ix2 q k)) (fun k => v7 (ix1 k)) (fun q k => v24 (ix2 q k)) (fun k => v28 (ix1 k))
          (fun q k => v36 (ix2 q k)) (fun k => v40 (ix1 k)) c := by
  unfold k0_pay1
  refine (congrArg₂ (· + ·)
    (congrArg₂ (· * ·) (congrArg (fun f => f (ix2 r c)) (shapeCast_self v45 shapeCasts_S4000x128_S4000x128))
      (pay2_apply v0 v3 v7 v24 v28 r c))
    (congrArg₂ (· + ·) (pay3_apply v33 v36 r c) (bias_apply v40 r c))).trans ?_
  rfl

end Cert.KernelIdeal.Pay

end
-- ==== Proof.Take.lean ====
import proofs.«401003_j45105746542698_2_alg».proof.Proof.Gen.KernelIdeal

noncomputable section

namespace Cert.KernelIdeal.Take

open Idealize.ShloMosaic Cert.KernelIdeal Cert.KernelIdeal.Facts₀ Cert.KernelIdeal.Facts

variable {F : FTy → Type} [FloatOps F]

/-- The source indices as the take reads them: a negative index counts from the end (`i + 50000`), then the vector is
    laid out as a column of start indices. -/
def wrapIdx (x9 : IVec S800000 32) : IVec S800000x1 32 :=
  broadcastInDim S800000x1 ![0] bcast_S800000_S800000x1_0
    (select (cmpi .slt x9 (broadcastInDim S800000 ![] bcast_S_S800000 (constantI S_ 32 0#32)))
      (addi x9 (broadcastInDim S800000 ![] bcast_S_S800000 (constantI S_ 32 50000#32))) x9)

/-- Which rows' wrapped index lies in `0 … 49999`. -/
def inRange (x9 : IVec S800000 32) : IVec S800000 1 :=
  Host.reduce IntOp.andi
    (andi (cmpi .sge (wrapIdx x9) (broadcastInDim S800000x1 ![] bcast_S_S800000x1 (constantI S_ 32 0#32)))
      (cmpi .sle (wrapIdx x9) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows gathered at the wrapped indices. -/
def gathered (x2 : FVec F S50000x64 .f32) (x9 : IVec S800000 32) : FVec F S800000x64 .f32 :=
  Host.gather gather_S50000x64_S800000x1_S800000x64_1_0_n_n_0_1_164 x2 (wrapIdx x9)

/-- The take with its fill: the gathered row where the wrapped index is in range, the fill pattern elsewhere. -/
def takeK (x2 : FVec F S50000x64 .f32) (x9 : IVec S800000 32) : FVec F S800000x64 .f32 :=
  select (broadcastInDim S800000x64 ![0] bcast_S800000_S800000x64_0 (inRange x9)) (gathered x2 x9)
    (broadcastInDim S800000x64 ![] bcast_S_S800000x64 (constant S_ .f32 0x7FC00000#32))

end Cert.KernelIdeal.Take

end
-- ==== Proof.LibAfter.lean ====
import Idealize.ShloMosaic.Lib.StableHlo.Run

namespace Idealize.ShloMosaic.StableHlo

open Idealize.SL.Sem

variable {nD : Nat} {τ : Topo} {sig : RefSig} {Val : EltTy → Type}

/-- The buffer contents after two lines of host operations run one after the other: the second line's, from the
    contents the first line leaves. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

namespace TRef

variable {T : BufTy}

/-- Contents moved to a typed reference's buffer type and back are the contents: the two transports along the
    reference's type equation cancel. -/
theorem ofBuf_toBuf (x : TRef sig T) (v : T.Contents Val) : x.ofBuf (x.toBuf v) = v := by
  obtain ⟨r, rfl, _, _⟩ := x
  rfl

/-- The other way round: from the buffer's type to the value's and back. -/
theorem toBuf_ofBuf (x : TRef sig T) (v : x.ref.ty.Contents Val) : x.toBuf (x.ofBuf v) = v := by
  obtain ⟨r, rfl, _, _⟩ := x
  rfl

end TRef

end Idealize.ShloMosaic.StableHlo
-- ==== Proof.Prefix.lean ====
import proofs.«401003_j45105746542698_2_alg».proof.Proof.Gen.KernelIdeal.Frame
import proofs.«401003_j45105746542698_2_alg».proof.Proof.Spec
import proofs.«401003_j45105746542698_2_alg».proof.Proof.Take
import proofs.«401003_j45105746542698_2_alg».proof.Proof.LibAfter
import Idealize.ShloMosaic.Lib.ValueIdx
import Idealize.ShloMosaic.Lib.IdealHost
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostPrefix

open Idealize.ShloMosaic Idealize.ShloMosaic.TcCoe Idealize.ShloMosaic.ValueIdx Idealize.SL.Sem Cert.KernelIdeal Cert.KernelIdeal.Gen Cert.EdgeMsg

variable (m : (ℓ : Loc nD τ sig) → Buf (Elt Ideal) ℓ) (c : Dev nD)

/-- The contents the region finds are the second host stretch's, from what the first stretch leaves. -/
theorem V_split (b : Ref sig .tc) :
    V m c b = StableHlo.after hostOps0_1 (StableHlo.after hostOps0 (fun b => m (c, b))) (Proc.devRef .tc b) := by
  show StableHlo.after (List.flatten [hostOps0, hostOps0_1]) (fun b => m (c, b)) (Proc.devRef .tc b) = _
  rw [List.flatten_cons, List.flatten_cons, List.flatten_nil, List.append_nil, StableHlo.after_append]

/-- The contents after the first host stretch (the take), before the second. -/
abbrev W0 : Valuation τ sig (Elt Ideal) := StableHlo.after hostOps0 (fun b => m (c, b))

/-- The contents the region finds, over `W0`. -/
theorem V_eq (b : Ref sig .tc) : V m c b = StableHlo.after hostOps0_1 (W0 m c) (Proc.devRef .tc b) := V_split m c b

/-- A launch array read through its typed reference is the array: the transport along a literal reference's type
    equation is the identity. -/
theorem leaf9 : (StableHlo.TRef.of main_arg9 : StableHlo.TRef sig ⟨S800000, .i32⟩).ofBuf (m (c, Proc.tc.devRef main_arg9))
    = m ((c : Thread nD τ).loc main_arg9) := rfl

theorem leaf2 : (StableHlo.TRef.of main_arg2 : StableHlo.TRef sig ⟨S50000x64, .f32⟩).ofBuf (m (c, Proc.tc.devRef main_arg2))
    = m ((c : Thread nD τ).loc main_arg2) := rfl

/-- The same for the gathered array's own buffer, the other way. -/
theorem outer0 (v : FVec Ideal S800000x64 .f32) :
    ((StableHlo.TRef.of main_v0 : StableHlo.TRef sig ⟨S800000x64, .f32⟩).toBuf (Val := Elt Ideal) v
      : FVec Ideal S800000x64 .f32) = v := rfl

set_option maxHeartbeats 1000000 in
/-- The gathered array as the host's take leaves it: the second host stretch does not write it, and the take's
    operations compose to the wrapped-index gather under its range mask. -/
theorem v0_eq : V m c main_v0
    = Take.takeK (F := Ideal) (m ((c : Thread nD τ).loc main_arg2)) (m ((c : Thread nD τ).loc main_arg9)) := by
  refine (V_split m c main_v0).trans ?_
  rw [StableHlo.after_of_forall_not_mem (b := Proc.devRef .tc main_v0) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  simp only [hostOps0]
  after_results_simp
  simp only [StableHlo.TRef.ofBuf_toBuf, leaf9, leaf2]
  refine (outer0 _).trans ?_
  rfl

section Blocks
variable {α : Type}

/-- Two matrices side by side, read left of the seam. -/
private theorem cols_left {r a b n : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, n]⟩ 1) (i : Fin r) (j : Fin n) (hj : j.val < a) :
    concatenate (⟨2, ![r, n]⟩ : Shape) 1 [⟨⟨2, ![r, a]⟩, x₁⟩, ⟨⟨2, ![r, b]⟩, x₂⟩] h (ix2 i j) = x₁ (ix2 i ⟨j.val, hj⟩) := by
  refine concatenate_pair_apply_left 1 x₁ x₂ h (ix2 i j) rfl (ix2 i ⟨j.val, hj⟩) ?_
  intro d
  match d with
  | ⟨0, _⟩ => rfl
  | ⟨1, _⟩ => rfl

/-- Two matrices side by side, read right of the seam. -/
private theorem cols_right {r a b n : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, n]⟩ 1) (i : Fin r) (j : Fin n) (hj : a ≤ j.val)
    (hj' : j.val - a < b) :
    concatenate (⟨2, ![r, n]⟩ : Shape) 1 [⟨⟨2, ![r, a]⟩, x₁⟩, ⟨⟨2, ![r, b]⟩, x₂⟩] h (ix2 i j) = x₂ (ix2 i ⟨j.val - a, hj'⟩) := by
  refine concatenate_pair_apply_right 1 x₁ x₂ h (ix2 i j) rfl rfl (ix2 i ⟨j.val - a, hj'⟩) ?_ ?_
  · intro d hd
    match d, hd with
    | ⟨0, _⟩, _ => rfl
    | ⟨1, _⟩, hd => exact absurd rfl hd
  · show j.val - a + a = j.val
    omega

/-- Two matrices one above the other, read above the seam. -/
private theorem rows_top {a b n w : ℕ} (x₁ : (⟨2, ![a, w]⟩ : Shape).Idx → α) (x₂ : (⟨2, ![b, w]⟩ : Shape).Idx → α)
    (h : Shape.Concatenates [(⟨2, ![a, w]⟩ : Shape), ⟨2, ![b, w]⟩] ⟨2, ![n, w]⟩ 0) (i : Fin n) (j : Fin w) (hi : i.val < a) :
    concatenate (⟨2, ![n, w]⟩ : Shape) 0 [⟨⟨2, ![a, w]⟩, x₁⟩, ⟨⟨2, ![b, w]⟩, x₂⟩] h (ix2 i j) = x₁ (ix2 ⟨i.val, hi⟩ j) := by
  refine concatenate_pair_apply_left 0 x₁ x₂ h (ix2 i j) rfl (ix2 ⟨i.val, hi⟩ j) ?_
  intro d
  match d with
  | ⟨0, _⟩ => rfl
  | ⟨1, _⟩ => rfl

/-- Two matrices one above the other, read below the seam. -/
private theorem rows_bot {a b n w : ℕ} (x₁ : (⟨2, ![a, w]⟩ : Shape).Idx → α) (x₂ : (⟨2, ![b, w]⟩ : Shape).Idx → α)
    (h : Shape.Concatenates [(⟨2, ![a, w]⟩ : Shape), ⟨2, ![b, w]⟩] ⟨2, ![n, w]⟩ 0) (i : Fin n) (j : Fin w) (hi : a ≤ i.val)
    (hi' : i.val - a < b) :
    concatenate (⟨2, ![n, w]⟩ : Shape) 0 [⟨⟨2, ![a, w]⟩, x₁⟩, ⟨⟨2, ![b, w]⟩, x₂⟩] h (ix2 i j) = x₂ (ix2 ⟨i.val - a, hi'⟩ j) := by
  refine concatenate_pair_apply_right 0 x₁ x₂ h (ix2 i j) rfl rfl (ix2 ⟨i.val - a, hi'⟩ j) ?_ ?_
  · intro d hd
    match d, hd with
    | ⟨0, _⟩, hd => exact absurd rfl hd
    | ⟨1, _⟩, _ => rfl
  · show i.val - a + a = i.val
    omega

/-- Two vectors end to end, read before the seam. -/
private theorem vec_left {a b n : ℕ} (x₁ : (⟨1, ![a]⟩ : Shape).Idx → α) (x₂ : (⟨1, ![b]⟩ : Shape).Idx → α)
    (h : Shape.Concatenates [(⟨1, ![a]⟩ : Shape), ⟨1, ![b]⟩] ⟨1, ![n]⟩ 0) (i : Fin n) (hi : i.val < a) :
    concatenate (⟨1, ![n]⟩ : Shape) 0 [⟨⟨1, ![a]⟩, x₁⟩, ⟨⟨1, ![b]⟩, x₂⟩] h (ix1 i) = x₁ (ix1 ⟨i.val, hi⟩) := by
  refine concatenate_pair_apply_left 0 x₁ x₂ h (ix1 i) rfl (ix1 ⟨i.val, hi⟩) ?_
  intro d
  match d with
  | ⟨0, _⟩ => rfl

/-- Two vectors end to end, read after the seam. -/
private theorem vec_right {a b n : ℕ} (x₁ : (⟨1, ![a]⟩ : Shape).Idx → α) (x₂ : (⟨1, ![b]⟩ : Shape).Idx → α)
    (h : Shape.Concatenates [(⟨1, ![a]⟩ : Shape), ⟨1, ![b]⟩] ⟨1, ![n]⟩ 0) (i : Fin n) (hi : a ≤ i.val) (hi' : i.val - a < b) :
    concatenate (⟨1, ![n]⟩ : Shape) 0 [⟨⟨1, ![a]⟩, x₁⟩, ⟨⟨1, ![b]⟩, x₂⟩] h (ix1 i) = x₂ (ix1 ⟨i.val - a, hi'⟩) := by
  refine concatenate_pair_apply_right 0 x₁ x₂ h (ix1 i) rfl rfl (ix1 ⟨i.val - a, hi'⟩) ?_ ?_
  · intro d hd
    match d, hd with
    | ⟨0, _⟩, hd => exact absurd rfl hd
  · show i.val - a + a = i.val
    omega

end Blocks

/-- The zero block reads the extended real zero everywhere. -/
private theorem zero100x64 (i : S100x64.Idx) :
    broadcastInDim S100x64 ![] bcast_S_S100x64 (constant (F := Ideal) S_ .f32 0x00000000#32) i = 0 :=
  (broadcastInDim_scalar_apply _ _ i).trans ((constant_apply _ _).trans Ideal.ofBits_zero_f32)

private theorem zero64x64 (i : S64x64.Idx) :
    broadcastInDim S64x64 ![] bcast_S_S64x64 (constant (F := Ideal) S_ .f32 0x00000000#32) i = 0 :=
  (broadcastInDim_scalar_apply _ _ i).trans ((constant_apply _ _).trans Ideal.ofBits_zero_f32)

/-- A [100, 64] matrix doubled block-diagonally to [200, 128]: the matrix on the two diagonal blocks, the other
    array (zero) off them. -/
private theorem dbl200 (W Z : FVec Ideal S100x64 .f32) (hZ : ∀ i, Z i = 0) (q : Fin 200) (k : Fin 128) :
    concatenate S200x128 0
        [⟨S100x128, concatenate S100x128 1 [⟨S100x64, W⟩, ⟨S100x64, Z⟩] concatenates_S100x64_S100x64_S100x128_d1⟩,
         ⟨S100x128, concatenate S100x128 1 [⟨S100x64, Z⟩, ⟨S100x64, W⟩] concatenates_S100x64_S100x64_S100x128_d1⟩]
        concatenates_S100x128_S100x128_S200x128_d0 (ix2 q k)
      = if hi200 q = hi128 k then W (ix2 (lo200 q) (lo128 k)) else 0 := by
  have hq := q.isLt
  have hk := k.isLt
  by_cases hq1 : q.val < 100
  · refine (rows_top _ _ _ q k hq1).trans ?_
    have eq : (⟨q.val, hq1⟩ : Fin 100) = lo200 q := Fin.ext (by show q.val = q.val % 100; omega)
    by_cases hk1 : k.val < 64
    · refine (cols_left _ _ _ _ k hk1).trans ?_
      have ek : (⟨k.val, hk1⟩ : Fin 64) = lo128 k := Fin.ext (by show k.val = k.val % 64; omega)
      have e : hi200 q = hi128 k := Fin.ext (by show q.val / 100 = k.val / 64; omega)
      rw [if_pos e, eq, ek]
    · refine (cols_right _ _ _ _ k (by omega) (by omega)).trans ?_
      have e : ¬ hi200 q = hi128 k := fun h => by
        have := congrArg Fin.val h
        change q.val / 100 = k.val / 64 at this
        omega
      rw [if_neg e]
      exact hZ _
  · have eq : (⟨q.val - 100, by omega⟩ : Fin 100) = lo200 q := Fin.ext (by show q.val - 100 = q.val % 100; omega)
    refine (rows_bot _ _ _ q k (by omega) (by omega)).trans ?_
    by_cases hk1 : k.val < 64
    · refine (cols_left _ _ _ _ k hk1).trans ?_
      have e : ¬ hi200 q = hi128 k := fun h => by
        have := congrArg Fin.val h
        change q.val / 100 = k.val / 64 at this
        omega
      rw [if_neg e]
      exact hZ _
    · refine (cols_right _ _ _ _ k (by omega) (by omega)).trans ?_
      have ek : (⟨k.val - 64, by omega⟩ : Fin 64) = lo128 k := Fin.ext (by show k.val - 64 = k.val % 64; omega)
      have e : hi200 q = hi128 k := Fin.ext (by show q.val / 100 = k.val / 64; omega)
      rw [if_pos e, eq, ek]

/-- A [64, 64] matrix doubled block-diagonally to [128, 128]. -/
private theorem dbl128 (W Z : FVec Ideal S64x64 .f32) (hZ : ∀ i, Z i = 0) (q k : Fin 128) :
    concatenate S128x128 0
        [⟨S64x128, concatenate S64x128 1 [⟨S64x64, W⟩, ⟨S64x64, Z⟩] concatenates_S64x64_S64x64_S64x128_d1⟩,
         ⟨S64x128, concatenate S64x128 1 [⟨S64x64, Z⟩, ⟨S64x64, W⟩] concatenates_S64x64_S64x64_S64x128_d1⟩]
        concatenates_S64x128_S64x128_S128x128_d0 (ix2 q k)
      = if hi128 q = hi128 k then W (ix2 (lo128 q) (lo128 k)) else 0 := by
  have hq := q.isLt
  have hk := k.isLt
  by_cases hq1 : q.val < 64
  · refine (rows_top _ _ _ q k hq1).trans ?_
    have eq : (⟨q.val, hq1⟩ : Fin 64) = lo128 q := Fin.ext (by show q.val = q.val % 64; omega)
    by_cases hk1 : k.val < 64
    · refine (cols_left _ _ _ _ k hk1).trans ?_
      have ek : (⟨k.val, hk1⟩ : Fin 64) = lo128 k := Fin.ext (by show k.val = k.val % 64; omega)
      have e : hi128 q = hi128 k := Fin.ext (by show q.val / 64 = k.val / 64; omega)
      rw [if_pos e, eq, ek]
    · refine (cols_right _ _ _ _ k (by omega) (by omega)).trans ?_
      have e : ¬ hi128 q = hi128 k := fun h => by
        have := congrArg Fin.val h
        change q.val / 64 = k.val / 64 at this
        omega
      rw [if_neg e]
      exact hZ _
  · have eq : (⟨q.val - 64, by omega⟩ : Fin 64) = lo128 q := Fin.ext (by show q.val - 64 = q.val % 64; omega)
    refine (rows_bot _ _ _ q k (by omega) (by omega)).trans ?_
    by_cases hk1 : k.val < 64
    · refine (cols_left _ _ _ _ k hk1).trans ?_
      have e : ¬ hi128 q = hi128 k := fun h => by
        have := congrArg Fin.val h
        change q.val / 64 = k.val / 64 at this
        omega
      rw [if_neg e]
      exact hZ _
    · refine (cols_right _ _ _ _ k (by omega) (by omega)).trans ?_
      have ek : (⟨k.val - 64, by omega⟩ : Fin 64) = lo128 k := Fin.ext (by show k.val - 64 = k.val % 64; omega)
      have e : hi128 q = hi128 k := Fin.ext (by show q.val / 64 = k.val / 64; omega)
      rw [if_pos e, eq, ek]

/-- A vector of 64 concatenated with itself, read at lane k: the vector at k mod 64. -/
private theorem dblVec (b : FVec Ideal S64 .f32) (k : Fin 128) :
    concatenate S128 0 [⟨S64, b⟩, ⟨S64, b⟩] concatenates_S64_S64_S128_d0 (ix1 k) = b (ix1 (lo128 k)) := by
  have hk := k.isLt
  by_cases hk1 : k.val < 64
  · refine (vec_left _ _ _ k hk1).trans ?_
    have ek : (⟨k.val, hk1⟩ : Fin 64) = lo128 k := Fin.ext (by show k.val = k.val % 64; omega)
    rw [ek]
  · refine (vec_right _ _ _ k (by omega) (by omega)).trans ?_
    have ek : (⟨k.val - 64, by omega⟩ : Fin 64) = lo128 k := Fin.ext (by show k.val - 64 = k.val % 64; omega)
    rw [ek]

/-- The first reshape: the paired radial basis array is the launch array recast. -/
private theorem v1_eq : V m c main_v1
    = shapeCast S400000x200 (m ((c : Thread nD τ).loc main_arg0)) shapeCasts_S800000x100_S400000x200 := by
  refine (V_eq m c main_v1).trans ?_
  simp only [hostOps0_1]
  after_results
  rfl

/-- The second reshape. -/
private theorem v2_eq : V m c main_v2
    = shapeCast S400000x128 (m ((c : Thread nD τ).loc main_arg1)) shapeCasts_S800000x64_S400000x128 := by
  refine (V_eq m c main_v2).trans ?_
  simp only [hostOps0_1]
  after_results
  rfl

/-- The gathered array's buffer after the first stretch is what the region finds: the second stretch does not write it. -/
private theorem W0_v0 : W0 m c (Proc.devRef .tc main_v0) = V m c main_v0 := by
  refine ((V_eq m c main_v0).trans ?_).symm
  exact StableHlo.after_of_forall_not_mem (b := Proc.devRef .tc main_v0) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The third reshape, of the gathered array as the first stretch left it. -/
private theorem v3_eq : V m c main_v3
    = shapeCast S400000x128 (V m c main_v0) shapeCasts_S800000x64_S400000x128 := by
  refine (V_eq m c main_v3).trans ?_
  rw [← W0_v0 m c]
  generalize W0 m c = G
  simp only [hostOps0_1]
  after_results
  rfl

/-- Row p, column q of [400000, 200] is at row-major position 200 p + q = 100 (2p + q / 100) + q mod 100:
    row 2p + q / 100, column q mod 100 of [800000, 100]. -/
private theorem cast200 (x : FVec Ideal S800000x100 .f32) (p : Fin 400000) (q : Fin 200) :
    shapeCast S400000x200 x shapeCasts_S800000x100_S400000x200 (ix2 p q)
      = x (ix2 (edgeOf p (hi200 q)) (lo200 q)) := by
  refine shapeCast_apply x _ (ix2 p q) (ix2 (edgeOf p (hi200 q)) (lo200 q)) ?_
  rw [Shape.rowMajor_val_two, Shape.rowMajor_val_two]
  show (2 * p.val + q.val / 100) * 100 + q.val % 100 = p.val * 200 + q.val
  have := p.isLt; have := q.isLt
  omega

/-- Row p, lane k of [400000, 128] is row 2p + k / 64, column k mod 64 of [800000, 64]. -/
private theorem cast128 (x : FVec Ideal S800000x64 .f32) (p : Fin 400000) (k : Fin 128) :
    shapeCast S400000x128 x shapeCasts_S800000x64_S400000x128 (ix2 p k)
      = x (ix2 (edgeOf p (hi128 k)) (lo128 k)) := by
  refine shapeCast_apply x _ (ix2 p k) (ix2 (edgeOf p (hi128 k)) (lo128 k)) ?_
  rw [Shape.rowMajor_val_two, Shape.rowMajor_val_two]
  show (2 * p.val + k.val / 64) * 64 + k.val % 64 = p.val * 128 + k.val
  have := p.isLt; have := k.isLt
  omega

/-- The doubled first-layer weights as the host's three concatenations build them. -/
private theorem v7_eq : V m c main_v7
    = concatenate S200x128 0
        [⟨S100x128, concatenate S100x128 1 [⟨S100x64, m ((c : Thread nD τ).loc main_arg3)⟩,
            ⟨S100x64, broadcastInDim S100x64 ![] bcast_S_S100x64 (constant (F := Ideal) S_ .f32 0x00000000#32)⟩] concatenates_S100x64_S100x64_S100x128_d1⟩,
         ⟨S100x128, concatenate S100x128 1 [⟨S100x64, broadcastInDim S100x64 ![] bcast_S_S100x64 (constant (F := Ideal) S_ .f32 0x00000000#32)⟩,
            ⟨S100x64, m ((c : Thread nD τ).loc main_arg3)⟩] concatenates_S100x64_S100x64_S100x128_d1⟩]
        concatenates_S100x128_S100x128_S200x128_d0 := by
  refine (V_eq m c main_v7).trans ?_
  simp only [hostOps0_1]
  after_results

/-- The doubled second-layer weights. -/
private theorem v11_eq : V m c main_v11
    = concatenate S128x128 0
        [⟨S64x128, concatenate S64x128 1 [⟨S64x64, m ((c : Thread nD τ).loc main_arg5)⟩,
            ⟨S64x64, broadcastInDim S64x64 ![] bcast_S_S64x64 (constant (F := Ideal) S_ .f32 0x00000000#32)⟩] concatenates_S64x64_S64x64_S64x128_d1⟩,
         ⟨S64x128, concatenate S64x128 1 [⟨S64x64, broadcastInDim S64x64 ![] bcast_S_S64x64 (constant (F := Ideal) S_ .f32 0x00000000#32)⟩,
            ⟨S64x64, m ((c : Thread nD τ).loc main_arg5)⟩] concatenates_S64x64_S64x64_S64x128_d1⟩]
        concatenates_S64x128_S64x128_S128x128_d0 := by
  refine (V_eq m c main_v11).trans ?_
  simp only [hostOps0_1]
  after_results

set_option maxHeartbeats 1000000 in
/-- The doubled edge-feature weights. -/
private theorem v15_eq : V m c main_v15
    = concatenate S128x128 0
        [⟨S64x128, concatenate S64x128 1 [⟨S64x64, m ((c : Thread nD τ).loc main_arg7)⟩,
            ⟨S64x64, broadcastInDim S64x64 ![] bcast_S_S64x64 (constant (F := Ideal) S_ .f32 0x00000000#32)⟩] concatenates_S64x64_S64x64_S64x128_d1⟩,
         ⟨S64x128, concatenate S64x128 1 [⟨S64x64, broadcastInDim S64x64 ![] bcast_S_S64x64 (constant (F := Ideal) S_ .f32 0x00000000#32)⟩,
            ⟨S64x64, m ((c : Thread nD τ).loc main_arg7)⟩] concatenates_S64x64_S64x64_S64x128_d1⟩]
        concatenates_S64x128_S64x128_S128x128_d0 := by
  refine (V_eq m c main_v15).trans ?_
  simp only [hostOps0_1]
  after_results

/-- The three biases, each concatenated with itself. -/
private theorem v16_eq : V m c main_v16
    = concatenate S128 0 [⟨S64, m ((c : Thread nD τ).loc main_arg4)⟩, ⟨S64, m ((c : Thread nD τ).loc main_arg4)⟩]
        concatenates_S64_S64_S128_d0 := by
  refine (V_eq m c main_v16).trans ?_
  simp only [hostOps0_1]
  after_results

private theorem v17_eq : V m c main_v17
    = concatenate S128 0 [⟨S64, m ((c : Thread nD τ).loc main_arg6)⟩, ⟨S64, m ((c : Thread nD τ).loc main_arg6)⟩]
        concatenates_S64_S64_S128_d0 := by
  refine (V_eq m c main_v17).trans ?_
  simp only [hostOps0_1]
  after_results

private theorem v18_eq : V m c main_v18
    = concatenate S128 0 [⟨S64, m ((c : Thread nD τ).loc main_arg8)⟩, ⟨S64, m ((c : Thread nD τ).loc main_arg8)⟩]
        concatenates_S64_S64_S128_d0 := by
  refine (V_eq m c main_v18).trans ?_
  simp only [hostOps0_1]
  after_results

/-- The paired radial basis array: row `p`, column `q` is edge `2p + q / 100`, column `q mod 100`. -/
theorem v1_apply (p : Fin 400000) (q : Fin 200) :
    (V m c main_v1 : S400000x200.Idx → EReal) (ix2 p q)
      = (m ((c : Thread nD τ).loc main_arg0) : S800000x100.Idx → EReal) (ix2 (edgeOf p (hi200 q)) (lo200 q)) := by
  refine (congrFun (v1_eq m c) (ix2 p q)).trans ?_
  exact cast200 _ p q

/-- The paired edge-feature array. -/
theorem v2_apply (p : Fin 400000) (k : Fin 128) :
    (V m c main_v2 : S400000x128.Idx → EReal) (ix2 p k)
      = (m ((c : Thread nD τ).loc main_arg1) : S800000x64.Idx → EReal) (ix2 (edgeOf p (hi128 k)) (lo128 k)) := by
  refine (congrFun (v2_eq m c) (ix2 p k)).trans ?_
  exact cast128 _ p k

/-- The paired gathered array, over the gathered array as the host left it. -/
theorem v3_apply (p : Fin 400000) (k : Fin 128) :
    (V m c main_v3 : S400000x128.Idx → EReal) (ix2 p k)
      = (V m c main_v0 : S800000x64.Idx → EReal) (ix2 (edgeOf p (hi128 k)) (lo128 k)) := by
  refine (congrFun (v3_eq m c) (ix2 p k)).trans ?_
  exact cast128 _ p k

/-- The doubled first-layer weights: `W1` on the two diagonal blocks, zero off them. -/
theorem v7_apply (q : Fin 200) (k : Fin 128) :
    (V m c main_v7 : S200x128.Idx → EReal) (ix2 q k)
      = if hi200 q = hi128 k then (m ((c : Thread nD τ).loc main_arg3) : S100x64.Idx → EReal) (ix2 (lo200 q) (lo128 k)) else (0 : EReal) := by
  refine (congrFun (v7_eq m c) (ix2 q k)).trans ?_
  exact dbl200 _ _ zero100x64 q k

/-- The doubled second-layer weights. -/
theorem v11_apply (q k : Fin 128) :
    (V m c main_v11 : S128x128.Idx → EReal) (ix2 q k)
      = if hi128 q = hi128 k then (m ((c : Thread nD τ).loc main_arg5) : S64x64.Idx → EReal) (ix2 (lo128 q) (lo128 k)) else (0 : EReal) := by
  refine (congrFun (v11_eq m c) (ix2 q k)).trans ?_
  exact dbl128 _ _ zero64x64 q k

/-- The doubled edge-feature weights. -/
theorem v15_apply (q k : Fin 128) :
    (V m c main_v15 : S128x128.Idx → EReal) (ix2 q k)
      = if hi128 q = hi128 k then (m ((c : Thread nD τ).loc main_arg7) : S64x64.Idx → EReal) (ix2 (lo128 q) (lo128 k)) else (0 : EReal) := by
  refine (congrFun (v15_eq m c) (ix2 q k)).trans ?_
  exact dbl128 _ _ zero64x64 q k

/-- The three doubled biases. -/
theorem v16_apply (k : Fin 128) :
    (V m c main_v16 : S128.Idx → EReal) (ix1 k) = (m ((c : Thread nD τ).loc main_arg4) : S64.Idx → EReal) (ix1 (lo128 k)) := by
  refine (congrFun (v16_eq m c) (ix1 k)).trans ?_
  exact dblVec _ k
theorem v17_apply (k : Fin 128) :
    (V m c main_v17 : S128.Idx → EReal) (ix1 k) = (m ((c : Thread nD τ).loc main_arg6) : S64.Idx → EReal) (ix1 (lo128 k)) := by
  refine (congrFun (v17_eq m c) (ix1 k)).trans ?_
  exact dblVec _ k
theorem v18_apply (k : Fin 128) :
    (V m c main_v18 : S128.Idx → EReal) (ix1 k) = (m ((c : Thread nD τ).loc main_arg8) : S64.Idx → EReal) (ix1 (lo128 k)) := by
  refine (congrFun (v18_eq m c) (ix1 k)).trans ?_
  exact dblVec _ k

end Cert.KernelIdeal.HostPrefix

end
-- ==== Proof.Blocks.lean ====
import proofs.«401003_j45105746542698_2_alg».proof.Proof.Gen.KernelIdeal.Frame
import proofs.«401003_j45105746542698_2_alg».proof.Proof.Spec
import proofs.«401003_j45105746542698_2_alg».proof.Proof.Payload
import proofs.«401003_j45105746542698_2_alg».proof.Proof.Prefix
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen Cert.EdgeMsg
open Idealize.ShloMosaic.Pipeline (Dat)

variable (m : (ℓ : Loc nD τ sig) → Buf (Elt Ideal) ℓ) (c : Dev nD)

/-- The printed index maps over the grid: the three edge windows and the output move one block of 4000 paired rows per
    point; the weight and bias windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem t_lt (t : Fin cfg0.N) : t.val < 100 := by
  have h := t.isLt
  have hN : cfg0.N = 100 := N_0
  omega

/-- Window 0's block at point `t` starts at paired row `4000 t`. -/
theorem emb0 (t : Fin cfg0.N) (r : Fin 4000) (q : Fin 200) (p : Fin 400000) (hp : p.val = 4000 * t.val + r.val) :
    ((cfg0.win 0).blk t).view.emb (ix2 r q) = ix2 p q := by
  obtain ⟨e00, e01, e10, e11, e20, e21, e30, e31, e40, e50, e51, e60, e70, e71, e80, e90, e91⟩ := idx_facts t
  funext a; apply Fin.ext
  match a with
  | ⟨0, _⟩ => show win0_0.index t (0 : Fin 2) * 4000 + 1 * r.val = p.val; omega
  | ⟨1, _⟩ => show win0_0.index t (1 : Fin 2) * 200 + 1 * q.val = q.val; omega

/-- Window 0's block at point `t` of ANY array: row `r` of the block is paired row `4000 t + r`. -/
theorem read0 (A : S400000x200.Idx → EReal) (t : Fin cfg0.N) (r : Fin 4000) (q : Fin 200) (p : Fin 400000)
    (hp : p.val = 4000 * t.val + r.val) :
    ((cfg0.win 0).blk t).view.read (Elt Ideal) A (ix2 r q) = A (ix2 p q) := by
  show A (((cfg0.win 0).blk t).view.emb (ix2 r q)) = A (ix2 p q)
  rw [emb0 t r q p hp]

theorem blk0 (t : Fin cfg0.N) (r : Fin 4000) (q : Fin 200) (p : Fin 400000) (hp : p.val = 4000 * t.val + r.val) :
    iblk m c 0 t (ix2 r q) = V m c main_v1 (ix2 p q) :=
  read0 (V m c main_v1) t r q p hp

/-- Window 1's block at point `t` starts at paired row `4000 t`. -/
theorem emb1 (t : Fin cfg0.N) (r : Fin 4000) (q : Fin 128) (p : Fin 400000) (hp : p.val = 4000 * t.val + r.val) :
    ((cfg0.win 1).blk t).view.emb (ix2 r q) = ix2 p q := by
  obtain ⟨e00, e01, e10, e11, e20, e21, e30, e31, e40, e50, e51, e60, e70, e71, e80, e90, e91⟩ := idx_facts t
  funext a; apply Fin.ext
  match a with
  | ⟨0, _⟩ => show win0_1.index t (0 : Fin 2) * 4000 + 1 * r.val = p.val; omega
  | ⟨1, _⟩ => show win0_1.index t (1 : Fin 2) * 128 + 1 * q.val = q.val; omega

/-- Window 1's block at point `t` of ANY array: row `r` of the block is paired row `4000 t + r`. -/
theorem read1 (A : S400000x128.Idx → EReal) (t : Fin cfg0.N) (r : Fin 4000) (q : Fin 128) (p : Fin 400000)
    (hp : p.val = 4000 * t.val + r.val) :
    ((cfg0.win 1).blk t).view.read (Elt Ideal) A (ix2 r q) = A (ix2 p q) := by
  show A (((cfg0.win 1).blk t).view.emb (ix2 r q)) = A (ix2 p q)
  rw [emb1 t r q p hp]

theorem blk1 (t : Fin cfg0.N) (r : Fin 4000) (q : Fin 128) (p : Fin 400000) (hp : p.val = 4000 * t.val + r.val) :
    iblk m c 1 t (ix2 r q) = V m c main_v2 (ix2 p q) :=
  read1 (V m c main_v2) t r q p hp

/-- Window 2's block at point `t` starts at paired row `4000 t`. -/
theorem emb2 (t : Fin cfg0.N) (r : Fin 4000) (q : Fin 128) (p : Fin 400000) (hp : p.val = 4000 * t.val + r.val) :
    ((cfg0.win 2).blk t).view.emb (ix2 r q) = ix2 p q := by
  obtain ⟨e00, e01, e10, e11, e20, e21, e30, e31, e40, e50, e51, e60, e70, e71, e80, e90, e91⟩ := idx_facts t
  funext a; apply Fin.ext
  match a with
  | ⟨0, _⟩ => show win0_2.index t (0 : Fin 2) * 4000 + 1 * r.val = p.val; omega
  | ⟨1, _⟩ => show win0_2.index t (1 : Fin 2) * 128 + 1 * q.val = q.val; omega

/-- Window 2's block at point `t` of ANY array: row `r` of the block is paired row `4000 t + r`. -/
theorem read2 (A : S400000x128.Idx → EReal) (t : Fin cfg0.N) (r : Fin 4000) (q : Fin 128) (p : Fin 400000)
    (hp : p.val = 4000 * t.val + r.val) :
    ((cfg0.win 2).blk t).view.read (Elt Ideal) A (ix2 r q) = A (ix2 p q) := by
  show A (((cfg0.win 2).blk t).view.emb (ix2 r q)) = A (ix2 p q)
  rw [emb2 t r q p hp]

theorem blk2 (t : Fin cfg0.N) (r : Fin 4000) (q : Fin 128) (p : Fin 400000) (hp : p.val = 4000 * t.val + r.val) :
    iblk m c 2 t (ix2 r q) = V m c main_v3 (ix2 p q) :=
  read2 (V m c main_v3) t r q p hp

/-- Window 3 is its whole array at every point. -/
theorem emb3 (t : Fin cfg0.N) (q : Fin 200) (k : Fin 128) :
    ((cfg0.win 3).blk t).view.emb (ix2 q k) = ix2 q k := by
  obtain ⟨e00, e01, e10, e11, e20, e21, e30, e31, e40, e50, e51, e60, e70, e71, e80, e90, e91⟩ := idx_facts t
  funext a; apply Fin.ext
  match a with
  | ⟨0, _⟩ => show win0_3.index t (0 : Fin 2) * 200 + 1 * q.val = q.val; omega
  | ⟨1, _⟩ => show win0_3.index t (1 : Fin 2) * 128 + 1 * k.val = k.val; omega

theorem read3 (A : S200x128.Idx → EReal) (t : Fin cfg0.N) (q : Fin 200) (k : Fin 128) :
    ((cfg0.win 3).blk t).view.read (Elt Ideal) A (ix2 q k) = A (ix2 q k) := by
  show A (((cfg0.win 3).blk t).view.emb (ix2 q k)) = A (ix2 q k)
  rw [emb3 t q k]

theorem blk3 (t : Fin cfg0.N) (q : Fin 200) (k : Fin 128) :
    iblk m c 3 t (ix2 q k) = V m c main_v7 (ix2 q k) :=
  read3 (V m c main_v7) t q k

/-- Window 4 is its whole vector at every point. -/
theorem emb4 (t : Fin cfg0.N) (k : Fin 128) :
    ((cfg0.win 4).blk t).view.emb (ix1 k) = ix1 k := by
  obtain ⟨e00, e01, e10, e11, e20, e21, e30, e31, e40, e50, e51, e60, e70, e71, e80, e90, e91⟩ := idx_facts t
  funext a; apply Fin.ext
  match a with
  | ⟨0, _⟩ => show win0_4.index t (0 : Fin 1) * 128 + 1 * k.val = k.val; omega

theorem read4 (A : S128.Idx → EReal) (t : Fin cfg0.N) (k : Fin 128) :
    ((cfg0.win 4).blk t).view.read (Elt Ideal) A (ix1 k) = A (ix1 k) := by
  show A (((cfg0.win 4).blk t).view.emb (ix1 k)) = A (ix1 k)
  rw [emb4 t k]

theorem blk4 (t : Fin cfg0.N) (k : Fin 128) :
    iblk m c 4 t (ix1 k) = V m c main_v16 (ix1 k) :=
  read4 (V m c main_v16) t k

/-- Window 5 is its whole array at every point. -/
theorem emb5 (t : Fin cfg0.N) (q : Fin 128) (k : Fin 128) :
    ((cfg0.win 5).blk t).view.emb (ix2 q k) = ix2 q k := by
  obtain ⟨e00, e01, e10, e11, e20, e21, e30, e31, e40, e50, e51, e60, e70, e71, e80, e90, e91⟩ := idx_facts t
  funext a; apply Fin.ext
  match a with
  | ⟨0, _⟩ => show win0_5.index t (0 : Fin 2) * 128 + 1 * q.val = q.val; omega
  | ⟨1, _⟩ => show win0_5.index t (1 : Fin 2) * 128 + 1 * k.val = k.val; omega

theorem read5 (A : S128x128.Idx → EReal) (t : Fin cfg0.N) (q : Fin 128) (k : Fin 128) :
    ((cfg0.win 5).blk t).view.read (Elt Ideal) A (ix2 q k) = A (ix2 q k) := by
  show A (((cfg0.win 5).blk t).view.emb (ix2 q k)) = A (ix2 q k)
  rw [emb5 t q k]

theorem blk5 (t : Fin cfg0.N) (q : Fin 128) (k : Fin 128) :
    iblk m c 5 t (ix2 q k) = V m c main_v11 (ix2 q k) :=
  read5 (V m c main_v11) t q k

/-- Window 6 is its whole vector at every point. -/
theorem emb6 (t : Fin cfg0.N) (k : Fin 128) :
    ((cfg0.win 6).blk t).view.emb (ix1 k) = ix1 k := by
  obtain ⟨e00, e01, e10, e11, e20, e21, e30, e31, e40, e50, e51, e60, e70, e71, e80, e90, e91⟩ := idx_facts t
  funext a; apply Fin.ext
  match a with
  | ⟨0, _⟩ => show win0_6.index t (0 : Fin 1) * 128 + 1 * k.val = k.val; omega

theorem read6 (A : S128.Idx → EReal) (t : Fin cfg0.N) (k : Fin 128) :
    ((cfg0.win 6).blk t).view.read (Elt Ideal) A (ix1 k) = A (ix1 k) := by
  show A (((cfg0.win 6).blk t).view.emb (ix1 k)) = A (ix1 k)
  rw [emb6 t k]

theorem blk6 (t : Fin cfg0.N) (k : Fin 128) :
    iblk m c 6 t (ix1 k) = V m c main_v17 (ix1 k) :=
  read6 (V m c main_v17) t k

/-- Window 7 is its whole array at every point. -/
theorem emb7 (t : Fin cfg0.N) (q : Fin 128) (k : Fin 128) :
    ((cfg0.win 7).blk t).view.emb (ix2 q k) = ix2 q k := by
  obtain ⟨e00, e01, e10, e11, e20, e21, e30, e31, e40, e50, e51, e60, e70, e71, e80, e90, e91⟩ := idx_facts t
  funext a; apply Fin.ext
  match a with
  | ⟨0, _⟩ => show win0_7.index t (0 : Fin 2) * 128 + 1 * q.val = q.val; omega
  | ⟨1, _⟩ => show win0_7.index t (1 : Fin 2) * 128 + 1 * k.val = k.val; omega

theorem read7 (A : S128x128.Idx → EReal) (t : Fin cfg0.N) (q : Fin 128) (k : Fin 128) :
    ((cfg0.win 7).blk t).view.read (Elt Ideal) A (ix2 q k) = A (ix2 q k) := by
  show A (((cfg0.win 7).blk t).view.emb (ix2 q k)) = A (ix2 q k)
  rw [emb7 t q k]

theorem blk7 (t : Fin cfg0.N) (q : Fin 128) (k : Fin 128) :
    iblk m c 7 t (ix2 q k) = V m c main_v15 (ix2 q k) :=
  read7 (V m c main_v15) t q k

/-- Window 8 is its whole vector at every point. -/
theorem emb8 (t : Fin cfg0.N) (k : Fin 128) :
    ((cfg0.win 8).blk t).view.emb (ix1 k) = ix1 k := by
  obtain ⟨e00, e01, e10, e11, e20, e21, e30, e31, e40, e50, e51, e60, e70, e71, e80, e90, e91⟩ := idx_facts t
  funext a; apply Fin.ext
  match a with
  | ⟨0, _⟩ => show win0_8.index t (0 : Fin 1) * 128 + 1 * k.val = k.val; omega

theorem read8 (A : S128.Idx → EReal) (t : Fin cfg0.N) (k : Fin 128) :
    ((cfg0.win 8).blk t).view.read (Elt Ideal) A (ix1 k) = A (ix1 k) := by
  show A (((cfg0.win 8).blk t).view.emb (ix1 k)) = A (ix1 k)
  rw [emb8 t k]

theorem blk8 (t : Fin cfg0.N) (k : Fin 128) :
    iblk m c 8 t (ix1 k) = V m c main_v18 (ix1 k) :=
  read8 (V m c main_v18) t k

end Cert.KernelIdeal.Blocks

end
-- ==== Proof.Row.lean ====
import proofs.«401003_j45105746542698_2_alg».proof.Proof.Gen.KernelIdeal.Frame
import proofs.«401003_j45105746542698_2_alg».proof.Proof.Spec
import proofs.«401003_j45105746542698_2_alg».proof.Proof.Payload
import Idealize.ShloMosaic.Lib.ValueIdx
import Idealize.ShloMosaic.Lib.Pipeline.Value

set_option maxRecDepth 16384

noncomputable section

namespace Cert.KernelIdeal.Row

open Idealize.ShloMosaic Idealize.ShloMosaic.ValueIdx Cert.KernelIdeal Cert.KernelIdeal.Gen Cert.EdgeMsg

theorem hz2 : (![0, 0] : Fin 2 → Nat) = fun _ => 0 := funext fun a => by fin_cases a <;> rfl
theorem hz1 : (![0] : Fin 1 → Nat) = fun _ => 0 := funext fun a => by fin_cases a <;> rfl

/-- Edge `e`'s message at feature `j`, of a gathered array `g`, the two per-edge arrays and the six parameters. -/
def msgOf (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal) (e : Fin 800000) (j : Fin 64) : EReal :=
  msg (fun j' => g (ix2 e j')) (fun q => a0 (ix2 e q)) (fun k => a1 (ix2 e k))
    (fun q k => a3 (ix2 q k)) (fun k => a4 (ix1 k)) (fun q k => a5 (ix2 q k)) (fun k => a6 (ix1 k))
    (fun q k => a7 (ix2 q k)) (fun k => a8 (ix1 k)) j

/-- The paired message array: row `p`, lane `k` holds feature `k mod 64` of the message of edge `2p + k / 64`. -/
def G2of (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal) : S400000x128.Idx → EReal := fun i =>
  msgOf g a0 a1 a3 a4 a5 a6 a7 a8 (edgeOf ⟨(i 0).val, idx2_lt0 i⟩ (hi128 ⟨(i 1).val, idx2_lt1 i⟩)) (lo128 ⟨(i 1).val, idx2_lt1 i⟩)

theorem G2of_apply (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal) (p : Fin 400000) (k : Fin 128) :
    G2of g a0 a1 a3 a4 a5 a6 a7 a8 (ix2 p k) = msgOf g a0 a1 a3 a4 a5 a6 a7 a8 (edgeOf p (hi128 k)) (lo128 k) := rfl

/-- What the body stores at row `r`, lane `k` of its output block, for ANY nine loaded blocks whose rows are the paired
    rows of the arrays (row `r` of the three edge blocks is paired row `p`; the weight blocks are block-diagonal doublings,
    the bias blocks doubled): the message of edge `2p + k / 64` at feature `k mod 64`. -/
theorem out_row (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal)
    (x0 : Vec Ideal S4000x200 .f32) (x1 x2 : Vec Ideal S4000x128 .f32) (x3 : Vec Ideal S200x128 .f32)
    (x4 : Vec Ideal S128 .f32) (x5 : Vec Ideal S128x128 .f32) (x6 : Vec Ideal S128 .f32)
    (x7 : Vec Ideal S128x128 .f32) (x8 : Vec Ideal S128 .f32) (p : Fin 400000) (r : Fin 4000) (k : Fin 128)
    (h0 : ∀ q, x0 (ix2 r q) = a0 (ix2 (edgeOf p (hi200 q)) (lo200 q)))
    (h1 : ∀ k, x1 (ix2 r k) = a1 (ix2 (edgeOf p (hi128 k)) (lo128 k)))
    (h2 : ∀ k, x2 (ix2 r k) = g (ix2 (edgeOf p (hi128 k)) (lo128 k)))
    (hW1 : ∀ q k, x3 (ix2 q k) = if hi200 q = hi128 k then a3 (ix2 (lo200 q) (lo128 k)) else (0 : EReal))
    (hb1 : ∀ k, x4 (ix1 k) = a4 (ix1 (lo128 k)))
    (hW2 : ∀ q k, x5 (ix2 q k) = if hi128 q = hi128 k then a5 (ix2 (lo128 q) (lo128 k)) else (0 : EReal))
    (hb2 : ∀ k, x6 (ix1 k) = a6 (ix1 (lo128 k)))
    (hW3 : ∀ q k, x7 (ix2 q k) = if hi128 q = hi128 k then a7 (ix2 (lo128 q) (lo128 k)) else (0 : EReal))
    (hb3 : ∀ k, x8 (ix1 k) = a8 (ix1 (lo128 k))) :
    out0_9 (F := Ideal) x0 x1 x2 x3 x4 x5 x6 x7 x8 (ix2 r k)
      = msgOf g a0 a1 a3 a4 a5 a6 a7 a8 (edgeOf p (hi128 k)) (lo128 k) := by
  unfold out0_9
  rw [View.canon_unit_zero hz2]
  simp only [View.ld_unit_zero (S := S4000x200) hz2, View.ld_unit_zero (S := S4000x128) hz2,
    View.ld_unit_zero (S := S200x128) hz2, View.ld_unit_zero (S := S128x128) hz2, View.ld_unit_zero (S := S128) hz1]
  refine (Pay.pay_apply x0 x3 x4 x5 x6 x1 x7 x8 x2 r k).trans ?_
  exact payRow_eq (fun h j => g (ix2 (edgeOf p h) j)) (fun h j => a1 (ix2 (edgeOf p h) j))
    (fun h q => a0 (ix2 (edgeOf p h) q)) (fun q k => a3 (ix2 q k)) (fun k => a4 (ix1 k)) (fun q k => a5 (ix2 q k))
    (fun k => a6 (ix1 k)) (fun q k => a7 (ix2 q k)) (fun k => a8 (ix1 k)) _ _ _ _ _ _ _ _ _
    h0 h1 h2 hW1 hb1 hW2 hb2 hW3 hb3 k

end Cert.KernelIdeal.Row

end
-- ==== Proof.Flush.lean ====
import proofs.«401003_j45105746542698_2_alg».proof.Proof.Blocks
import proofs.«401003_j45105746542698_2_alg».proof.Proof.Row

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen Cert.EdgeMsg
open Idealize.ShloMosaic.Pipeline (Dat)

variable (m : (ℓ : Loc nD τ sig) → Buf (Elt Ideal) ℓ) (c : Dev nD)

/-- The paired message array of this program's arrays: the gathered rows as the host left them, the rest as launched. -/
abbrev GK : S400000x128.Idx → EReal :=
  Row.G2of (V m c main_v0) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The output window's block at point `t` starts at paired row `4000 t`. -/
theorem emb9 (t : Fin cfg0.N) (r : Fin 4000) (k : Fin 128) (p : Fin 400000) (hp : p.val = 4000 * t.val + r.val) :
    ((cfg0.win 9).blk t).view.emb (ix2 r k) = ix2 p k := by
  obtain ⟨e00, e01, e10, e11, e20, e21, e30, e31, e40, e50, e51, e60, e70, e71, e80, e90, e91⟩ := idx_facts t
  funext a; apply Fin.ext
  match a with
  | ⟨0, _⟩ => show win0_9.index t (0 : Fin 2) * 4000 + 1 * r.val = p.val; omega
  | ⟨1, _⟩ => show win0_9.index t (1 : Fin 2) * 128 + 1 * k.val = k.val; omega

/-- The output window's block at point `t` of ANY array. -/
theorem read9 (A : S400000x128.Idx → EReal) (t : Fin cfg0.N) (r : Fin 4000) (k : Fin 128) (p : Fin 400000)
    (hp : p.val = 4000 * t.val + r.val) :
    ((cfg0.win 9).blk t).view.read (Elt Ideal) A (ix2 r k) = A (ix2 p k) := by
  show A (((cfg0.win 9).blk t).view.emb (ix2 r k)) = A (ix2 p k)
  rw [emb9 t r k p hp]

/-- What the body leaves at an index `y` of the output block at point `t`: the paired message array there. Row `r` of the
    three edge blocks is paired row `4000 t + r` of the paired arrays, which the host's reshapes cut out of the per-edge
    arrays; the weight and bias blocks are the host's doublings. -/
theorem flush_at (t : Fin cfg0.N) (y : S4000x128.Idx) :
    out0_9 (F := Ideal) (iblk m c 0 t) (iblk m c 1 t) (iblk m c 2 t) (iblk m c 3 t) (iblk m c 4 t) (iblk m c 5 t)
        (iblk m c 6 t) (iblk m c 7 t) (iblk m c 8 t) y
      = ((cfg0.win 9).blk t).view.read (Elt Ideal) (GK m c) y := by
  obtain ⟨r, k, rfl⟩ : ∃ (r : Fin 4000) (k : Fin 128), y = ix2 r k := ⟨y 0, y 1, eq_ix2 y⟩
  have ht := t_lt t
  have hr := r.isLt
  let p : Fin 400000 := ⟨4000 * t.val + r.val, by omega⟩
  have hp : p.val = 4000 * t.val + r.val := rfl
  refine (Row.out_row (V m c main_v0) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t)
    (iblk m c 7 t) (iblk m c 8 t) p r k
    (fun q => (blk0 m c t r q p hp).trans (HostPrefix.v1_apply m c p q))
    (fun k => (blk1 m c t r k p hp).trans (HostPrefix.v2_apply m c p k))
    (fun k => (blk2 m c t r k p hp).trans (HostPrefix.v3_apply m c p k))
    (fun q k => (blk3 m c t q k).trans (HostPrefix.v7_apply m c q k))
    (fun k => (blk4 m c t k).trans (HostPrefix.v16_apply m c k))
    (fun q k => (blk5 m c t q k).trans (HostPrefix.v11_apply m c q k))
    (fun k => (blk6 m c t k).trans (HostPrefix.v17_apply m c k))
    (fun q k => (blk7 m c t q k).trans (HostPrefix.v15_apply m c q k))
    (fun k => (blk8 m c t k).trans (HostPrefix.v18_apply m c k))).trans ?_
  exact ((read9 (GK m c) t r k p hp).trans (Row.G2of_apply _ _ _ _ _ _ _ _ _ p k)).symm

/-- WHAT POINT `t` WRITES BACK is block `t` of the paired message array. -/
theorem flushed_eq (t : Fin cfg0.N) :
    (dats m 0 c).flushed 9 t = ((cfg0.win 9).blk t).view.read (Elt Ideal) (GK m c) := by
  show (cfg0.win 9).cut (grid0.coords t) ((dats m 0 c).after 9 t) = _
  rw [after0_9]
  funext y
  exact flush_at m c t y

end Cert.KernelIdeal.Blocks

end
-- ==== Proof.Final.lean ====
import proofs.«401003_j45105746542698_2_alg».proof.Proof.Flush

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen Cert.EdgeMsg
open Idealize.ShloMosaic.Pipeline (Dat)

variable (m : (ℓ : Loc nD τ sig) → Buf (Elt Ideal) ℓ) (c : Dev nD)

/-- An index of the paired output array is in point `t`'s block iff each coordinate is in the block's range on its axis. -/
theorem mem_blk9 (t : Fin cfg0.N) (i : S400000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v19).slice (win0_9.rect t)).set ↔ _
  rw [View.set_slice_whole, Rect.mem_set_unit]
  exact Iff.rfl

/-- Every paired row lies in the block of the point `row / 4000`: the hundred blocks of 4000 rows tile the array. -/
theorem cover9 (i : S400000x128.Idx) :
    ∃ t : Fin cfg0.N, (cfg0.win 9).flush t = true ∧ i ∈ ((cfg0.win 9).blk t).view.set := by
  have hi0 : (i 0).val < 400000 := idx2_lt0 i
  have hi1 : (i 1).val < 128 := idx2_lt1 i
  have hN : cfg0.N = 100 := N_0
  let t : Fin cfg0.N := ⟨(i 0).val / 4000, by omega⟩
  have htv : t.val = (i 0).val / 4000 := rfl
  obtain ⟨e00, e01, e10, e11, e20, e21, e30, e31, e40, e50, e51, e60, e70, e71, e80, e90, e91⟩ := idx_facts t
  refine ⟨t, flush0_9 t, ?_⟩
  rw [mem_blk9]
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 128 ≤ (i 1).val ∧ (i 1).val < win0_9.index t (1 : Fin 2) * 128 + 128
    omega

/-- THE ARRAY after the run: the paired message array, whole. -/
theorem final9 : (dats m 0 c).arrAt 9 cfg0.N = GK m c :=
  (dats m 0 c).arrAt_eq_of_cover 9 (GK m c) (fun t _ => flushed_eq m c t) (cover9)

end Cert.KernelIdeal.Blocks

end
-- ==== Proof.PreDecode.lean ====
import proofs.«401003_j45105746542698_2_alg».proof.Proof.Take
import proofs.«401003_j45105746542698_2_alg».proof.Pre_finite_inputs
import proofs.«401003_j45105746542698_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.KernelIdeal.PreDecode

open Idealize.ShloMosaic Idealize.ShloMosaic.ValueIdx Cert.KernelIdeal Cert.KernelIdeal.Facts₀ Cert.KernelIdeal.Facts Cert.KernelIdeal.Take

/-! ## Words: the constants read signed, and the wrapped index -/

private theorem toInt_neg50000 : (4294917296#32 : BitVec 32).toInt = -50000 := by decide
private theorem toInt_zero : (0#32 : BitVec 32).toInt = 0 := by decide
private theorem toInt_50000 : (50000#32 : BitVec 32).toInt = 50000 := by decide
private theorem toInt_49999 : (49999#32 : BitVec 32).toInt = 49999 := by decide

/-- The scalar shape has one index. -/
private instance subsingleton_scalar_idx : Subsingleton (⟨0, ![]⟩ : Shape).Idx := ⟨fun a b => funext fun d => d.elim0⟩

/-- A negative word no less than `-50000` plus `50000` does not wrap. -/
private theorem toInt_add_small (s : BitVec 32) (h1 : (-50000 : Int) ≤ s.toInt) (h2 : s.toInt < 0) :
    (s + 50000#32).toInt = s.toInt + 50000 := by
  rw [BitVec.toInt_add, toInt_50000, Int.bmod_def]
  omega

/-- For `-50000 ≤ s < 50000` the wrapped word `if s < 0 then s + 50000 else s` lies in `0 … 49999`. -/
private theorem wrap_word (s : BitVec 32) (h1 : (-50000 : Int) ≤ s.toInt) (h2 : s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  rw [IntOp.andi_eq_one, IntOp.cmpi_sge, IntOp.cmpi_sle, toInt_zero, toInt_49999]
  by_cases hn : s.toInt < 0
  · have hc : IntOp.cmpi .slt s 0#32 = 1#1 := IntOp.cmpi_slt.2 (by rw [toInt_zero]; exact hn)
    rw [hc, select_one]
    show (0 : Int) ≤ (s + 50000#32).toInt ∧ (s + 50000#32).toInt ≤ 49999
    rw [toInt_add_small s h1 hn]
    omega
  · have hc : IntOp.cmpi .slt s 0#32 = 0#1 :=
      eq_zero_of_ne_one (fun hc => hn (by have := IntOp.cmpi_slt.1 hc; rwa [toInt_zero] at this))
    rw [hc, select_zero]
    omega

/-- A left fold by `and` from 1 over words that are all 1 is 1. -/
private theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_one f hf l

/-- The precondition's two index conjuncts, decoded: every source index lies in `-50000 … 49999` as a signed integer. -/
theorem src_range (a0 : FVec Ideal S800000x100 .f32) (a1 : FVec Ideal S800000x64 .f32) (a2 : FVec Ideal S50000x64 .f32)
    (a3 : FVec Ideal S100x64 .f32) (a4 : FVec Ideal S64 .f32) (a5 : FVec Ideal S64x64 .f32) (a6 : FVec Ideal S64 .f32)
    (a7 : FVec Ideal S64x64 .f32) (a8 : FVec Ideal S64 .f32) (a9 a10 : IVec S800000 32)
    (h : Cert.Pre_finite_inputs.fn (F := Ideal) a0 a1 a2 a3 a4 a5 a6 a7 a8 a9 a10 = fun _ => 1#1) (e : Fin 800000) :
    (-50000 : Int) ≤ (a9 (ix1 e)).toInt ∧ (a9 (ix1 e)).toInt < 50000 := by
  have h0 := congrFun h ix0
  dsimp only [Cert.Pre_finite_inputs.fn, Cert.Pre_finite_inputs.fn_part1, Cert.Pre_finite_inputs.fn_part2,
    Cert.Pre_finite_inputs.fn_part3] at h0
  -- the conjunction's last two conjuncts: all of `src ≥ -50000`, all of `src < 50000`
  obtain ⟨h47, h50⟩ := IntOp.andi_eq_one.1 h0
  obtain ⟨_, h46⟩ := IntOp.andi_eq_one.1 h47
  have hge := IntOp.cmpi_sge.1 (Host.reduce_andi_all _ _ _ _ _ h46 (ix1 e))
  have hlt := IntOp.cmpi_slt.1 (Host.reduce_andi_all _ _ _ _ _ h50 (ix1 e))
  -- a broadcast constant reads the constant at every index
  have hge' : (4294917296#32 : BitVec 32).toInt ≤ (a9 (ix1 e)).toInt := hge
  have hlt' : (a9 (ix1 e)).toInt < (50000#32 : BitVec 32).toInt := hlt
  rw [toInt_neg50000] at hge'
  rw [toInt_50000] at hlt'
  exact ⟨hge', hlt'⟩

/-- At any position of the index vector, both compares hold of the wrapped word. -/
private theorem sel_elem (x9 : IVec S800000 32)
    (h : ∀ e : Fin 800000, (-50000 : Int) ≤ (x9 (ix1 e)).toInt ∧ (x9 (ix1 e)).toInt < 50000) (k : S800000.Idx) :
    IntOp.andi
      (IntOp.cmpi .sge
        (select (cmpi .slt x9 (broadcastInDim S800000 ![] bcast_S_S800000 (constantI S_ 32 0#32)))
          (addi x9 (broadcastInDim S800000 ![] bcast_S_S800000 (constantI S_ 32 50000#32))) x9 k) 0#32)
      (IntOp.cmpi .sle
        (select (cmpi .slt x9 (broadcastInDim S800000 ![] bcast_S_S800000 (constantI S_ 32 0#32)))
          (addi x9 (broadcastInDim S800000 ![] bcast_S_S800000 (constantI S_ 32 50000#32))) x9 k) 49999#32) = 1#1 := by
  rw [eq_ix1 k]
  exact wrap_word (x9 (ix1 (k 0))) (h (k 0)).1 (h (k 0)).2

/-- The mask's operand at any position of the column: both compares hold of the wrapped word. -/
private theorem mask_elem (x9 : IVec S800000 32)
    (h : ∀ e : Fin 800000, (-50000 : Int) ≤ (x9 (ix1 e)).toInt ∧ (x9 (ix1 e)).toInt < 50000) (i : S800000x1.Idx) :
    andi (cmpi .sge (wrapIdx x9) (broadcastInDim S800000x1 ![] bcast_S_S800000x1 (constantI S_ 32 0#32)))
      (cmpi .sle (wrapIdx x9) (broadcastInDim S800000x1 ![0, 1] bcast_S1x1_S800000x1_0_1
        (broadcastInDim S1x1 ![1] bcast_S1_S1x1_1 (constantI S1 32 49999#32)))) i = 1#1 := by
  show IntOp.andi (IntOp.cmpi .sge (wrapIdx x9 i) 0#32) (IntOp.cmpi .sle (wrapIdx x9 i) 49999#32) = 1#1
  unfold wrapIdx broadcastInDim
  exact sel_elem x9 h _

/-- Every row's mask bit is set: the row's `and` runs from 1 over operands that are all 1. -/
private theorem inRange_eq_one (x9 : IVec S800000 32)
    (h : ∀ e : Fin 800000, (-50000 : Int) ≤ (x9 (ix1 e)).toInt ∧ (x9 (ix1 e)).toInt < 50000) (j : S800000.Idx) :
    inRange x9 j = 1#1 := by
  unfold inRange
  rw [Host.reduce_eq_foldl]
  exact foldl_andi_all_one _ (mask_elem x9 h) _

/-- With every source index in `-50000 … 49999` the wrapped index lies in `0 … 49999`, so the take's fill is never
    selected: the take is the gather. -/
theorem takeK_eq_gathered (x2 : FVec Ideal S50000x64 .f32) (x9 : IVec S800000 32)
    (h : ∀ e : Fin 800000, (-50000 : Int) ≤ (x9 (ix1 e)).toInt ∧ (x9 (ix1 e)).toInt < 50000) :
    takeK (F := Ideal) x2 x9 = gathered (F := Ideal) x2 x9 := by
  funext i
  unfold takeK
  rw [select_apply]
  have hm : broadcastInDim S800000x64 ![0] bcast_S800000_S800000x64_0 (inRange x9) i = 1#1 := by
    unfold broadcastInDim
    exact inRange_eq_one x9 h _
  rw [hm, select_one]

end Cert.KernelIdeal.PreDecode

end
-- ==== Proof.KernelRun.lean ====
import proofs.«401003_j45105746542698_2_alg».proof.Proof.Final
import proofs.«401003_j45105746542698_2_alg».proof.Proof.PreDecode
import Idealize.ShloMosaic.Lib.StableHlo.Run
import Idealize.ShloMosaic.Lib.ValueIdx
import Idealize.ShloMosaic.Lib.Pipeline.Value

set_option maxRecDepth 16384

noncomputable section

namespace Cert.KernelIdeal.KRun

open Idealize.ShloMosaic Idealize.ShloMosaic.TcCoe Idealize.ShloMosaic.ValueIdx Idealize.SL.Sem Cert.KernelIdeal Cert.KernelIdeal.Gen Cert.EdgeMsg

/-- The segmented sum both programs end with: the per-edge messages added into a zero array at the destination
    indices. -/
def tailK (dst : IVec S800000 32) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) u

/-- The per-edge message array. -/
def msgArr (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal) : S800000x64.Idx → EReal := fun i =>
  Row.msgOf g a0 a1 a3 a4 a5 a6 a7 a8 ⟨(i 0).val, idx2_lt0 i⟩ ⟨(i 1).val, idx2_lt1 i⟩

/-- Unpairing: edge `e`, feature `j` of the reshaped paired array is paired row `e / 2`, lane `64 (e mod 2) + j`, which
    holds the message of edge `2 (e / 2) + e mod 2 = e` at feature `j`. -/
theorem unpair (g : S800000x64.Idx → EReal) (a0 : S800000x100.Idx → EReal) (a1 : S800000x64.Idx → EReal)
    (a3 : S100x64.Idx → EReal) (a4 : S64.Idx → EReal) (a5 : S64x64.Idx → EReal) (a6 : S64.Idx → EReal)
    (a7 : S64x64.Idx → EReal) (a8 : S64.Idx → EReal) :
    shapeCast S800000x64 (Row.G2of g a0 a1 a3 a4 a5 a6 a7 a8) shapeCasts_S400000x128_S800000x64
      = msgArr g a0 a1 a3 a4 a5 a6 a7 a8 := by
  funext i
  obtain ⟨e, j, rfl⟩ : ∃ (e : Fin 800000) (j : Fin 64), i = ix2 e j := ⟨i 0, i 1, eq_ix2 i⟩
  have he := e.isLt
  have hj := j.isLt
  let p : Fin 400000 := ⟨e.val / 2, by omega⟩
  let k : Fin 128 := ⟨64 * (e.val % 2) + j.val, by omega⟩
  have hcast : shapeCast S800000x64 (Row.G2of g a0 a1 a3 a4 a5 a6 a7 a8) shapeCasts_S400000x128_S800000x64 (ix2 e j)
      = Row.G2of g a0 a1 a3 a4 a5 a6 a7 a8 (ix2 p k) := by
    refine shapeCast_apply _ _ (ix2 e j) (ix2 p k) ?_
    rw [Shape.rowMajor_val_two, Shape.rowMajor_val_two]
    show (e.val / 2) * 128 + (64 * (e.val % 2) + j.val) = e.val * 64 + j.val
    omega
  have hedge : edgeOf p (hi128 k) = e := Fin.ext (by
    show 2 * (e.val / 2) + (64 * (e.val % 2) + j.val) / 64 = e.val
    omega)
  have hfeat : lo128 k = j := Fin.ext (by
    show (64 * (e.val % 2) + j.val) % 64 = j.val
    omega)
  rw [hcast, Row.G2of_apply, hedge, hfeat]
  rfl

variable (c : Dev nD)

/-- The five host operations after the region, from ANY contents: the segmented sum of the reshaped output array. -/
theorem tail_eq (Vc : Valuation τ sig (Elt Ideal)) :
    StableHlo.after (hostOps1 (F := Ideal)) Vc (Proc.devRef .tc main_v23)
      = tailK (Vc (Proc.devRef .tc main_arg10))
          (shapeCast S800000x64 (Vc (Proc.devRef .tc main_v19)) shapeCasts_S400000x128_S800000x64) := by
  simp only [hostOps1]
  after_results
  rfl

/-- The same from the contents the region leaves: the pipeline's arrays at `A`, every other buffer at `Vc`. -/
theorem result_abs (Vc : Valuation τ sig (Elt Ideal))
    (A : (w : Fin 10) → Buf (Elt Ideal) ((spec0 w).arr.view.loc (c.tc : Thread nD τ))) :
    StableHlo.after ([hostOps1 (F := Ideal)].flatten) (Pipeline.withArrays spec0 c Vc A) (Proc.devRef .tc main_v23)
      = tailK (Vc (Proc.devRef .tc main_arg10)) (shapeCast S800000x64 (A 9) shapeCasts_S400000x128_S800000x64) := by
  rw [List.flatten_cons, List.flatten_nil, List.append_nil]
  refine (tail_eq _).trans ?_
  have e10 : Pipeline.withArrays spec0 c Vc A (Proc.devRef .tc main_arg10) = Vc (Proc.devRef .tc main_arg10) :=
    Pipeline.withArrays_of_ne spec0 c Vc A main_arg10 (by decide)
  have e9 : Pipeline.withArrays spec0 c Vc A (Proc.devRef .tc main_v19) = A 9 :=
    Pipeline.withArrays_arr spec0 launch0.win.arr_inj c Vc A 9
  rw [e10, e9]

variable (m : (ℓ : Loc nD τ sig) → Buf (Elt Ideal) ℓ)

/-- What the result buffer holds after the run, when every source index is in range: the segmented sum, at the launched
    destination indices, of the per-edge messages of the launched arrays, the source rows gathered at the wrapped
    indices. -/
theorem result_eq
    (hsrc : ∀ e : Fin 800000, (-50000 : Int) ≤ ((m ((c : Thread nD τ).loc main_arg9) : IVec S800000 32) (ix1 e)).toInt
      ∧ ((m ((c : Thread nD τ).loc main_arg9) : IVec S800000 32) (ix1 e)).toInt < 50000) :
    Pipeline.afterTail₀ cfgs (dats m) 0 (V0 m) [hostOps1] c main_v23
      = tailK (m ((c : Thread nD τ).loc main_arg10)) (msgArr (Take.gathered (F := Ideal) (m ((c : Thread nD τ).loc main_arg2)) (m ((c : Thread nD τ).loc main_arg9)))
      (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))) := by
  refine (result_abs c (V0 m c) (fun w => (dats m 0 c).arrAt w cfg0.N)).trans ?_
  have h10 : V0 m c (Proc.devRef .tc main_arg10) = m ((c : Thread nD τ).loc main_arg10) := V_main_arg10 m c
  have hG : (dats m 0 c).arrAt 9 cfg0.N = Blocks.GK m c := Blocks.final9 m c
  have hg : V m c main_v0 = (Take.gathered (F := Ideal) (m ((c : Thread nD τ).loc main_arg2)) (m ((c : Thread nD τ).loc main_arg9))) :=
    (HostPrefix.v0_eq m c).trans (PreDecode.takeK_eq_gathered _ _ hsrc)
  show tailK (V0 m c (Proc.devRef .tc main_arg10))
      (shapeCast S800000x64 ((dats m 0 c).arrAt 9 cfg0.N) shapeCasts_S400000x128_S800000x64) = _
  rw [h10, hG, unpair, hg]

/-- THE RUN, read: every weakly fair execution terminates with the result buffer at the segmented sum of the per-edge
    messages and the arguments unchanged. -/
theorem run (ρ : Dev nD → PrngReg)
    (hsrc : ∀ (c : Dev nD) (e : Fin 800000),
      (-50000 : Int) ≤ ((m ((c : Thread nD τ).loc main_arg9) : IVec S800000 32) (ix1 e)).toInt
      ∧ ((m ((c : Thread nD τ).loc main_arg9) : IVec S800000 32) (ix1 e)).toInt < 50000) :
    θ_run defs (onTc (τ := τ) (main (F := Ideal))) ⟨m, fun _ => 0, ρ⟩ (fun r => ∀ c : Dev nD,
      r.2.mem ((c.tc : Thread nD τ).loc main_v23)
        = tailK (m ((c : Thread nD τ).loc main_arg10)) (msgArr (Take.gathered (F := Ideal) (m ((c : Thread nD τ).loc main_arg2)) (m ((c : Thread nD τ).loc main_arg9)))
      (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v23 (Pipeline.mem_restRefs_of main_v23 (by decide) (by decide))).trans (result_eq c m (hsrc c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KRun

end
-- ==== Proof.RefSide.lean ====
import proofs.«401003_j45105746542698_2_alg».proof.Proof.Gen.ReferenceIdeal.Run
import proofs.«401003_j45105746542698_2_alg».proof.Proof.Gen.ReferenceIdeal.Read
import proofs.«401003_j45105746542698_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Idealize.ShloMosaic Idealize.ShloMosaic.ValueIdx Cert.ReferenceIdeal Cert.ReferenceIdeal.Read Cert.EdgeMsg

/-! Index equations: the composed index functions of the stages, at an index built from its coordinates. -/

private theorem lidx0_at (e : Fin 800000) (k : Fin 64) (q : Fin 100) : lidx_main_v0 (ix2 e k) q = ix2 e q :=
  funext fun a => Fin.ext (by match a with | ⟨0, _⟩ => rfl | ⟨1, _⟩ => rfl)
private theorem ridx0_at (e : Fin 800000) (k : Fin 64) (q : Fin 100) : ridx_main_v0 (ix2 e k) q = ix2 q k :=
  funext fun a => Fin.ext (by match a with | ⟨0, _⟩ => rfl | ⟨1, _⟩ => rfl)
private theorem idx1_at (e : Fin 800000) (k : Fin 64) : idx_main_v1 (idx_main_v2 (ix2 e k)) = ix1 k :=
  funext fun a => Fin.ext (by match a with | ⟨0, _⟩ => rfl)
private theorem lidx15_at (e : Fin 800000) (j k : Fin 64) : lidx_main_v15 (ix2 e j) k = ix2 e k :=
  funext fun a => Fin.ext (by match a with | ⟨0, _⟩ => rfl | ⟨1, _⟩ => rfl)
private theorem ridx15_at (e : Fin 800000) (j k : Fin 64) : ridx_main_v15 (ix2 e j) k = ix2 k j :=
  funext fun a => Fin.ext (by match a with | ⟨0, _⟩ => rfl | ⟨1, _⟩ => rfl)
private theorem idx16_at (e : Fin 800000) (j : Fin 64) : idx_main_v16 (idx_main_v17 (ix2 e j)) = ix1 j :=
  funext fun a => Fin.ext (by match a with | ⟨0, _⟩ => rfl)
private theorem lidx19_at (e : Fin 800000) (j k : Fin 64) : lidx_main_v19 (ix2 e j) k = ix2 e k :=
  funext fun a => Fin.ext (by match a with | ⟨0, _⟩ => rfl | ⟨1, _⟩ => rfl)
private theorem ridx19_at (e : Fin 800000) (j k : Fin 64) : ridx_main_v19 (ix2 e j) k = ix2 k j :=
  funext fun a => Fin.ext (by match a with | ⟨0, _⟩ => rfl | ⟨1, _⟩ => rfl)
private theorem idx20_at (e : Fin 800000) (j : Fin 64) : idx_main_v20 (idx_main_v21 (ix2 e j)) = ix1 j :=
  funext fun a => Fin.ext (by match a with | ⟨0, _⟩ => rfl)

/-- The first layer at edge `e`, unit `k`: the linear map of the edge's radial basis row. -/
private theorem v3_at (x0 : FVec Ideal S800000x100 .f32) (x3 : FVec Ideal S100x64 .f32) (x4 : FVec Ideal S64 .f32)
    (e : Fin 800000) (k : Fin 64) :
    val_main_v3 (F := Ideal) x0 x3 x4 (ix2 e k)
      = lin (fun q => x0 (ix2 e q)) (fun q k => x3 (ix2 q k)) (fun k => x4 (ix1 k)) k := by
  rw [val_main_v3_apply, val_main_v0_apply, val_main_v2_apply, val_main_v1_apply]
  simp only [lidx0_at, ridx0_at, idx1_at, Ideal.addf_def, lin]

/-- The hidden layer at edge `e`, unit `k`: softplus of the first layer. -/
private theorem v14_at (x0 : FVec Ideal S800000x100 .f32) (x3 : FVec Ideal S100x64 .f32) (x4 : FVec Ideal S64 .f32)
    (e : Fin 800000) (k : Fin 64) :
    val_main_v14 (F := Ideal) x0 x3 x4 (ix2 e k)
      = softplus (lin (fun q => x0 (ix2 e q)) (fun q k => x3 (ix2 q k)) (fun k => x4 (ix1 k)) k) := by
  rw [val_main_v14_apply, val_main_v7_apply, val_main_v13_apply, val_main_v12_apply, val_main_v11_apply,
    val_main_v10_apply, val_main_v9_apply, val_main_v5_apply, val_main_v4_apply, val_main_v8_apply, val_main_v6_apply,
    val_main_cst_apply, val_main_cst_0_apply, val_main_cst_1_apply, val_main_cst_2_apply, v3_at]
  simp only [Ideal.mulf_def, Ideal.minimumf_def, Ideal.hostUnary_exp_def, Ideal.hostUnary_log1p_def, Ideal.cmpf_def,
    Ideal.ofBits_def, softplus]

/-- The reference's message array at edge `e`, feature `j`: the message formula of edge `e`'s rows, with the gathered
    source row left as the reference's own gather. -/
theorem ref_msg (x0 : FVec Ideal S800000x100 .f32) (x1 : FVec Ideal S800000x64 .f32) (x2 : FVec Ideal S50000x64 .f32)
    (x3 : FVec Ideal S100x64 .f32) (x4 : FVec Ideal S64 .f32) (x5 : FVec Ideal S64x64 .f32) (x6 : FVec Ideal S64 .f32)
    (x7 : FVec Ideal S64x64 .f32) (x8 : FVec Ideal S64 .f32) (x9 : IVec S800000 32) (e : Fin 800000) (j : Fin 64) :
    val_main_v31 (F := Ideal) x0 x1 x2 x3 x4 x5 x6 x7 x8 x9 (ix2 e j)
      = msg (fun j' => val_main_v29 (F := Ideal) x2 x9 (ix2 e j')) (fun q => x0 (ix2 e q)) (fun k => x1 (ix2 e k))
          (fun q k => x3 (ix2 q k)) (fun k => x4 (ix1 k)) (fun q k => x5 (ix2 q k)) (fun k => x6 (ix1 k))
          (fun q k => x7 (ix2 q k)) (fun k => x8 (ix1 k)) j := by
  rw [val_main_v31_apply, val_main_v30_apply, val_main_v22_apply, val_main_v19_apply, val_main_v21_apply,
    val_main_v20_apply, val_main_v18_apply, val_main_v15_apply, val_main_v17_apply, val_main_v16_apply]
  simp only [lidx15_at, ridx15_at, idx16_at, lidx19_at, ridx19_at, idx20_at, v14_at, Ideal.addf_def, Ideal.mulf_def,
    msg, lin]

end Cert.ReferenceIdeal.RefSide

end
-- ==== Proof.Bridge.lean ====
import proofs.«401003_j45105746542698_2_alg».proof.Proof.RefSide
import proofs.«401003_j45105746542698_2_alg».proof.Proof.KernelRun

set_option maxRecDepth 16384

noncomputable section

namespace Cert.ReferenceIdeal.Bridge

open Idealize.ShloMosaic Idealize.ShloMosaic.ValueIdx Cert.ReferenceIdeal Cert.ReferenceIdeal.Read Cert.EdgeMsg

/-- The reference's gather is the kernel program's gather at the wrapped indices: the same operation on the same
    index vector (a negative index counted from the end). -/
theorem gather_eq (x2 : FVec Ideal S50000x64 .f32) (x9 : IVec S800000 32) :
    val_main_v29 (F := Ideal) x2 x9 = Cert.KernelIdeal.Take.gathered (F := Ideal) x2 x9 := rfl

/-- The reference's segmented sum is the kernel program's: the same scatter-add into the same zero array at the same
    destination indices. -/
theorem scatter_eq (x10 : IVec S800000 32) (u : FVec Ideal S800000x64 .f32) :
    Host.scatterAdd scatter_S50000x64_S800000x1_S800000x64_1_0_0_1 (val_main_v32 (F := Ideal))
        (val_main_v33 (F := Ideal) x10) u
      = Cert.KernelIdeal.KRun.tailK x10 u := rfl

/-- The reference's per-edge message array is the message array of its arguments, the source rows gathered at the
    wrapped indices. -/
theorem msg_eq (x0 : FVec Ideal S800000x100 .f32) (x1 : FVec Ideal S800000x64 .f32) (x2 : FVec Ideal S50000x64 .f32)
    (x3 : FVec Ideal S100x64 .f32) (x4 : FVec Ideal S64 .f32) (x5 : FVec Ideal S64x64 .f32) (x6 : FVec Ideal S64 .f32)
    (x7 : FVec Ideal S64x64 .f32) (x8 : FVec Ideal S64 .f32) (x9 : IVec S800000 32) :
    val_main_v31 (F := Ideal) x0 x1 x2 x3 x4 x5 x6 x7 x8 x9
      = Cert.KernelIdeal.KRun.msgArr (Cert.KernelIdeal.Take.gathered (F := Ideal) x2 x9) x0 x1 x3 x4 x5 x6 x7 x8 := by
  funext i
  obtain ⟨e, j, rfl⟩ : ∃ (e : Fin 800000) (j : Fin 64), i = ix2 e j := ⟨i 0, i 1, eq_ix2 i⟩
  rw [RefSide.ref_msg, gather_eq]
  rfl

/-- THE REFERENCE'S RESULT: the segmented sum, at the destination indices, of the per-edge messages. -/
theorem result_eq (x0 : FVec Ideal S800000x100 .f32) (x1 : FVec Ideal S800000x64 .f32) (x2 : FVec Ideal S50000x64 .f32)
    (x3 : FVec Ideal S100x64 .f32) (x4 : FVec Ideal S64 .f32) (x5 : FVec Ideal S64x64 .f32) (x6 : FVec Ideal S64 .f32)
    (x7 : FVec Ideal S64x64 .f32) (x8 : FVec Ideal S64 .f32) (x9 x10 : IVec S800000 32) :
    val_main_v34 (F := Ideal) x0 x1 x2 x3 x4 x5 x6 x7 x8 x9 x10
      = Cert.KernelIdeal.KRun.tailK x10
          (Cert.KernelIdeal.KRun.msgArr (Cert.KernelIdeal.Take.gathered (F := Ideal) x2 x9) x0 x1 x3 x4 x5 x6 x7 x8) := by
  unfold val_main_v34
  rw [msg_eq]
  exact scatter_eq x10 _

end Cert.ReferenceIdeal.Bridge

end
-- ==== Proof.lean ====
/- Equivalence over the extended reals of an edge-message kernel of a graph network and its reference.

   For an edge `e` with source node `src e` and destination node `dst e`, both programs form the message
     msg e = node[src e] * (softplus (rbf e · W1 + b1) · W2 + b2) + (ef e · W3 + b3)        (64 features),
   softplus with beta = 1/2 and threshold 14, and add the messages into a zero array at their destination rows.
   The reference does this edge by edge. The kernel pairs consecutive edges into rows of 128 lanes (a reshape), runs the
   three linear layers with block-diagonal doublings of the weights and doubled biases over blocks of 4000 paired rows,
   and unpairs the result (the inverse reshape) before the segmented sum. Lane `k` of paired row `p` is feature
   `k mod 64` of edge `2p + k / 64`: the zero blocks of the doubled weights contribute `x * 0 = 0` to every inner sum,
   which holds on all of the extended reals, so no finiteness is used. A change of float format is the identity here,
   and the kernel's and the host's exponential and `log (1 + ·)` are one function each.

   The two programs gather the source rows differently outside the index range: after counting a negative index from the
   end, the kernel's program keeps a gathered row only where the index lies in `0 … 49999` and otherwise fills the row
   with a fill pattern, while the reference reads the nearest row. Under the precondition `-50000 ≤ src e < 50000` every
   index counted from the end lies in range, the fill is never selected, and the two gathers are the same operation on
   the same indices. The destination indices enter both programs through the same segmented sum and need no condition.

   The frames of the two kernel programs are the generated ones; the reference's is its generated run with the result
   dropped; the idealization rewrote nothing, so there is nothing to preserve. -/
import proofs.«401003_j45105746542698_2_alg».proof.Defs
import proofs.«401003_j45105746542698_2_alg».proof.Proof.Gen.Kernel
import proofs.«401003_j45105746542698_2_alg».proof.Proof.Gen.Kernel.Skeleton
import proofs.«401003_j45105746542698_2_alg».proof.Proof.Gen.Kernel.Launch
import proofs.«401003_j45105746542698_2_alg».proof.Proof.Gen.Kernel.Points
import proofs.«401003_j45105746542698_2_alg».proof.Proof.Gen.Kernel.Frame
import proofs.«401003_j45105746542698_2_alg».proof.Proof.Gen.KernelIdeal
import proofs.«401003_j45105746542698_2_alg».proof.Proof.Gen.KernelIdeal.Skeleton
import proofs.«401003_j45105746542698_2_alg».proof.Proof.Gen.KernelIdeal.Launch
import proofs.«401003_j45105746542698_2_alg».proof.Proof.Gen.KernelIdeal.Points
import proofs.«401003_j45105746542698_2_alg».proof.Proof.Gen.KernelIdeal.Frame
import proofs.«401003_j45105746542698_2_alg».proof.Proof.Gen.ReferenceIdeal
import proofs.«401003_j45105746542698_2_alg».proof.Proof.Gen.ReferenceIdeal.Run
import proofs.«401003_j45105746542698_2_alg».proof.Proof.Gen.ReferenceIdeal.Read
import proofs.«401003_j45105746542698_2_alg».proof.Proof.Gen.Pre_finite_inputs
import proofs.«401003_j45105746542698_2_alg».proof.Proof.KernelRun
import proofs.«401003_j45105746542698_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading over the extended reals. -/
theorem preserves : Cert.preserves_Kernel_KernelIdeal := trivial

/-- From memories agreeing on the arguments, with every source index in `-50000 … 49999`, both programs end with the
    segmented sum, at the destination indices, of the per-edge messages of the arguments. -/
theorem algebraic : Cert.algebraic_KernelIdeal_ReferenceIdeal := by
  intro m ρ m' ρ' hpre hagree
  refine ⟨_, Cert.KernelIdeal.KRun.run m ρ
    (fun c e => Cert.KernelIdeal.PreDecode.src_range _ _ _ _ _ _ _ _ _ _ _ (hpre c) e), ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10⟩ := hagree c
  refine ((h c).1.trans (Cert.ReferenceIdeal.Read.val_main_v34_eq _ _ _ _ _ _ _ _ _ _ _)).trans ?_
  rw [Cert.ReferenceIdeal.Bridge.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
